-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x300000 : Shape := ⟨2, ![2, 300000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S256 .f32) (main_arg7 : FVec F S256x2 .f32) (main_arg8 : FVec F S2 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x2 .f32 := Host.absf main_arg7
  let main_cst_8 : FVec F S_ .f32 := constant S_ .f32 0x7F800000#32
  let main_v25 : FVec F S256x2 .f32 := broadcastInDim S256x2 ![] bcast_S_S256x2 main_cst_8
  let main_v26 : IVec S256x2 1 := cmpf .olt main_v24 main_v25
  let main_c_9 : IVec S_ 1 := constantI S_ 1 1#1
  let main_v27 : IVec S_ 1 := (fun x v => Host.reduce IntOp.andi x v reducesTo_S256x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x256 .f32) (main_arg1 : IVec S2x300000 32) (main_arg2 : IVec S2x300000 32) (main_arg3 : FVec F S512x512 .f32) (main_arg4 : FVec F S512 .f32) (main_arg5 : FVec F S512x256 .f32) (main_arg6 : FVec F S256 .f32) (main_arg7 : FVec F S256x2 .f32) (main_arg8 : FVec F S2 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg5
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg6 main_arg7 main_arg8 main_v13 main_v16
-- ==== Kernel.lean ====
abbrev S100000x256 : Shape := ⟨2, ![100000, 256]⟩
abbrev S2x300000 : Shape := ⟨2, ![2, 300000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x2 : Shape := ⟨2, ![256, 2]⟩
abbrev S2 : Shape := ⟨1, ![2]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x256 : Shape := ⟨2, ![600000, 256]⟩
abbrev S256x512 : Shape := ⟨2, ![256, 512]⟩
abbrev S1x512 : Shape := ⟨2, ![1, 512]⟩
abbrev S1x256 : Shape := ⟨2, ![1, 256]⟩
abbrev S1x2 : Shape := ⟨2, ![1, 2]⟩
abbrev S600000x2 : Shape := ⟨2, ![600000, 2]⟩
abbrev S4000x256 : Shape := ⟨2, ![4000, 256]⟩
abbrev S4000x2 : Shape := ⟨2, ![4000, 2]⟩
abbrev S4000x512 : Shape := ⟨2, ![4000, 512]⟩
abbrev S4000 : Shape := ⟨1, ![4000]⟩
abbrev S4000x1 : Shape := ⟨2, ![4000, 1]⟩
abbrev S300000x2 : Shape := ⟨2, ![300000, 2]⟩

abbrev nBuf : Space → Nat
  | .hbm => 45
  | .vmem => 13
  | .smem => 0
  | _ => 0

abbrev bufTy : (tb : Table) → Fin (tcTables nBuf tb) → BufTy
  | .hbm, ⟨0, _⟩ => ⟨S100000x256, .f32⟩
  | .hbm, ⟨1, _⟩ => ⟨S2x300000, .i32⟩
  | .hbm, ⟨2, _⟩ => ⟨S2x300000, .i32⟩
  | .hbm, ⟨3, _⟩ => ⟨S512x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256x2, .f32⟩
  | .hbm, ⟨8, _⟩ => ⟨S2, .f32⟩
  | .hbm, ⟨9, _⟩ => ⟨S2x600000, .i32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S100000x256, .bf16⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x256, .bf16⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x256, .bf16⟩
  | .hbm, ⟨33, _⟩ => ⟨S256x512, .f32⟩
  | .hbm, ⟨34, _⟩ => ⟨S256x512, .bf16⟩
  | .hbm, ⟨35, _⟩ => ⟨S256x512, .f32⟩
  | .hbm, ⟨36, _⟩ => ⟨S256x512, .bf16⟩
  | .hbm, ⟨37, _⟩ => ⟨S512x256, .bf16⟩
  | .hbm, ⟨38, _⟩ => ⟨S256x2, .bf16⟩
  | .hbm, ⟨39, _⟩ => ⟨S1x512, .f32⟩
  | .hbm, ⟨40, _⟩ => ⟨S1x256, .f32⟩
  | .hbm, ⟨41, _⟩ => ⟨S1x2, .f32⟩
  | .hbm, ⟨42, _⟩ => ⟨S600000x2, .f32⟩
  | .hbm, ⟨43, _⟩ => ⟨S300000x2, .f32⟩
  | .hbm, ⟨44, _⟩ => ⟨S300000x2, .f32⟩
  | .local _ .vmem, ⟨0, _⟩ => ⟨S4000x256, .bf16⟩
  | .local _ .vmem, ⟨1, _⟩ => ⟨S4000x256, .bf16⟩
  | .local _ .vmem, ⟨2, _⟩ => ⟨S4000x256, .bf16⟩
  | .local _ .vmem, ⟨3, _⟩ => ⟨S4000x256, .bf16⟩
  | .local _ .vmem, ⟨4, _⟩ => ⟨S256x512, .bf16⟩
  | .local _ .vmem, ⟨5, _⟩ => ⟨S256x512, .bf16⟩
  | .local _ .vmem, ⟨6, _⟩ => ⟨S1x512, .f32⟩
  | .local _ .vmem, ⟨7, _⟩ => ⟨S512x256, .bf16⟩
  | .local _ .vmem, ⟨8, _⟩ => ⟨S1x256, .f32⟩
  | .local _ .vmem, ⟨9, _⟩ => ⟨S256x2, .bf16⟩
  | .local _ .vmem, ⟨10, _⟩ => ⟨S1x2, .f32⟩
  | .local _ .vmem, ⟨11, _⟩ => ⟨S4000x2, .f32⟩
  | .local _ .vmem, ⟨12, _⟩ => ⟨S4000x2, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  concatenates_S2x300000_S2x300000_S2x600000_d1 : Shape.Concatenates [S2x300000, S2x300000] S2x600000 1
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bitsLt_bf16_f32 : FTy.bits .bf16 < FTy.bits .f32
  bcast_S_S600000 : S_.BroadcastsInDim S600000 (![] : Fin 0 → Fin S600000.rank)
  bcast_S600000_S600000x1_0 : S600000.BroadcastsInDim S600000x1 (![0] : Fin 1 → Fin S600000x1.rank)
  slices_S512x512_S256x512_0_0 : S512x512.Slices ![0, 0] S256x512
  slices_S512x512_S256x512_256_0 : S512x512.Slices ![256, 0] S256x512
  shapeCasts_S512_S1x512 : S512.ShapeCasts S1x512
  shapeCasts_S256_S1x256 : S256.ShapeCasts S1x256
  shapeCasts_S2_S1x2 : S2.ShapeCasts S1x2
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4000x512 : S1x512.Broadcasts S4000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  reduces_S4000x2_S4000 : S4000x2.Reduces [1] S4000
  shapeCasts_S4000_S4000x1 : S4000.ShapeCasts S4000x1
  broadcasts_S4000x1_S4000x2 : S4000x1.Broadcasts S4000x2
  inb_S4000x2_S4000x2_0_0 : ∀ a, (![0, 0] : Fin 2 → Nat) a + S4000x2.size a ≤ S4000x2.size a
  h_S4000x2 : 0 < S4000x2.numel
  slices_S600000x2_S300000x2_0_0 : S600000x2.Slices ![0, 0] S300000x2
  slices_S600000x2_S300000x2_300000_0 : S600000x2.Slices ![300000, 0] S300000x2
  gather_S100000x256_S600000x1_S600000x256_1_0_n_n_0_1_1256_wf : GatherDims.WF S100000x256 S600000x1 S600000x256 [1] [0] [] [0] [] 1 ![1, 256]
  dot_S4000x256_S256x512_S4000x512_1_0_0_1_n_n_wf : DotDims.WF S4000x256 S256x512 S4000x512 [1] [0] [0] [1] [] []
  dot_S4000x512_S512x256_S4000x256_1_0_0_1_n_n_wf : DotDims.WF S4000x512 S512x256 S4000x256 [1] [0] [0] [1] [] []
  dot_S4000x256_S256x2_S4000x2_1_0_0_1_n_n_wf : DotDims.WF S4000x256 S256x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S600000x256.size a
  hwx0_0 : ∀ i : grid0.Coords, EltTy.bits .bf16 = 32 ∨ (Rect.block (s := S600000x256) S4000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S600000x256.size a
  hwx0_1 : ∀ i : grid0.Coords, EltTy.bits .bf16 = 32 ∨ (Rect.block (s := S600000x256) S4000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x2.size a ≤ S256x2.size a
  hwx0_7 : ∀ i : grid0.Coords, EltTy.bits .bf16 = 32 ∨ (Rect.block (s := S256x2) S256x2.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x2.size a ≤ S600000x2.size a
  hwx0_9 : ∀ i : grid0.Coords, EltTy.bits .f32 = 32 ∨ (Rect.block (s := S600000x2) S4000x2.size (cc0_transform_9 i) (hinb0_9 i)).WholeWords (EltTy.packing .f32)

variable [Facts₀]

def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def dot_S4000x256_S256x512_S4000x512_1_0_0_1_n_n : DotDims S4000x256 S256x512 S4000x512 where
  lhsContracting := [1]
  rhsContracting := [0]
  lhsNonContracting := [0]
  rhsNonContracting := [1]
  lhsBatch := []
  rhsBatch := []
  wf := dot_S4000x256_S256x512_S4000x512_1_0_0_1_n_n_wf
def dot_S4000x512_S512x256_S4000x256_1_0_0_1_n_n : DotDims S4000x512 S512x256 S4000x256 where
  lhsContracting := [1]
  rhsContracting := [0]
  lhsNonContracting := [0]
  rhsNonContracting := [1]
  lhsBatch := []
  rhsBatch := []
  wf := dot_S4000x512_S512x256_S4000x256_1_0_0_1_n_n_wf
def dot_S4000x256_S256x2_S4000x2_1_0_0_1_n_n : DotDims S4000x256 S256x2 S4000x2 where
  lhsContracting := [1]
  rhsContracting := [0]
  lhsNonContracting := [0]
  rhsNonContracting := [1]
  lhsBatch := []
  rhsBatch := []
  wf := dot_S4000x256_S256x2_S4000x2_1_0_0_1_n_n_wf

abbrev win0_0 : Pipeline.Window sig grid0 :=
  Pipeline.Window.ofSpec (Memref.whole main_v12) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S256x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S1x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S4000x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x300000 : Shape := ⟨2, ![2, 300000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x2 : Shape := ⟨2, ![256, 2]⟩
abbrev S2 : Shape := ⟨1, ![2]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x256 : Shape := ⟨2, ![300000, 256]⟩
abbrev S300000x512 : Shape := ⟨2, ![300000, 512]⟩
abbrev S1x512 : Shape := ⟨2, ![1, 512]⟩
abbrev S1x256 : Shape := ⟨2, ![1, 256]⟩
abbrev S300000x2 : Shape := ⟨2, ![300000, 2]⟩
abbrev S1x2 : Shape := ⟨2, ![1, 2]⟩

abbrev nBuf : Space → Nat
  | .hbm => 121
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x300000, .i32⟩
  | .hbm, ⟨2, _⟩ => ⟨S2x300000, .i32⟩
  | .hbm, ⟨3, _⟩ => ⟨S512x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256x2, .f32⟩
  | .hbm, ⟨8, _⟩ => ⟨S2, .f32⟩
  | .hbm, ⟨9, _⟩ => ⟨S1x300000, .i32⟩
  | .hbm, ⟨10, _⟩ => ⟨S300000, .i32⟩
  | .hbm, ⟨11, _⟩ => ⟨S1x300000, .i32⟩
  | .hbm, ⟨12, _⟩ => ⟨S300000, .i32⟩
  | .hbm, ⟨13, _⟩ => ⟨S_, .i32⟩
  | .hbm, ⟨14, _⟩ => ⟨S300000, .i32⟩
  | .hbm, ⟨15, _⟩ => ⟨S300000, .i1⟩
  | .hbm, ⟨16, _⟩ => ⟨S_, .i32⟩
  | .hbm, ⟨17, _⟩ => ⟨S300000, .i32⟩
  | .hbm, ⟨18, _⟩ => ⟨S300000, .i32⟩
  | .hbm, ⟨19, _⟩ => ⟨S300000, .i32⟩
  | .hbm, ⟨20, _⟩ => ⟨S300000x1, .i32⟩
  | .hbm, ⟨21, _⟩ => ⟨S300000x256, .f32⟩
  | .hbm, ⟨22, _⟩ => ⟨S_, .i32⟩
  | .hbm, ⟨23, _⟩ => ⟨S300000, .i32⟩
  | .hbm, ⟨24, _⟩ => ⟨S300000, .i1⟩
  | .hbm, ⟨25, _⟩ => ⟨S_, .i32⟩
  | .hbm, ⟨26, _⟩ => ⟨S300000, .i32⟩
  | .hbm, ⟨27, _⟩ => ⟨S300000, .i32⟩
  | .hbm, ⟨28, _⟩ => ⟨S300000, .i32⟩
  | .hbm, ⟨29, _⟩ => ⟨S300000x1, .i32⟩
  | .hbm, ⟨30, _⟩ => ⟨S300000x256, .f32⟩
  | .hbm, ⟨31, _⟩ => ⟨S300000x512, .f32⟩
  | .hbm, ⟨32, _⟩ => ⟨S300000x512, .f32⟩
  | .hbm, ⟨33, _⟩ => ⟨S1x512, .f32⟩
  | .hbm, ⟨34, _⟩ => ⟨S300000x512, .f32⟩
  | .hbm, ⟨35, _⟩ => ⟨S300000x512, .f32⟩
  | .hbm, ⟨36, _⟩ => ⟨S_, .f32⟩
  | .hbm, ⟨37, _⟩ => ⟨S300000x512, .f32⟩
  | .hbm, ⟨38, _⟩ => ⟨S300000x512, .f32⟩
  | .hbm, ⟨39, _⟩ => ⟨S300000x256, .f32⟩
  | .hbm, ⟨40, _⟩ => ⟨S1x256, .f32⟩
  | .hbm, ⟨41, _⟩ => ⟨S300000x256, .f32⟩
  | .hbm, ⟨42, _⟩ => ⟨S300000x256, .f32⟩
  | .hbm, ⟨43, _⟩ => ⟨S_, .f32⟩
  | .hbm, ⟨44, _⟩ => ⟨S300000x256, .f32⟩
  | .hbm, ⟨45, _⟩ => ⟨S300000x256, .f32⟩
  | .hbm, ⟨46, _⟩ => ⟨S300000x2, .f32⟩
  | .hbm, ⟨47, _⟩ => ⟨S1x2, .f32⟩
  | .hbm, ⟨48, _⟩ => ⟨S300000x2, .f32⟩
  | .hbm, ⟨49, _⟩ => ⟨S300000x2, .f32⟩
  | .hbm, ⟨50, _⟩ => ⟨S_, .f32⟩
  | .hbm, ⟨51, _⟩ => ⟨S300000, .f32⟩
  | .hbm, ⟨52, _⟩ => ⟨S_, .f32⟩
  | .hbm, ⟨53, _⟩ => ⟨S300000, .f32⟩
  | .hbm, ⟨54, _⟩ => ⟨S300000, .f32⟩
  | .hbm, ⟨55, _⟩ => ⟨S300000x1, .f32⟩
  | .hbm, ⟨56, _⟩ => ⟨S300000x2, .f32⟩
  | .hbm, ⟨57, _⟩ => ⟨S300000x2, .f32⟩
  | .hbm, ⟨58, _⟩ => ⟨S300000x2, .f32⟩
  | .hbm, ⟨59, _⟩ => ⟨S_, .f32⟩
  | .hbm, ⟨60, _⟩ => ⟨S300000, .f32⟩
  | .hbm, ⟨61, _⟩ => ⟨S300000x1, .f32⟩
  | .hbm, ⟨62, _⟩ => ⟨S300000x1, .f32⟩
  | .hbm, ⟨63, _⟩ => ⟨S300000x2, .f32⟩
  | .hbm, ⟨64, _⟩ => ⟨S300000x2, .f32⟩
  | .hbm, ⟨65, _⟩ => ⟨S1x300000, .i32⟩
  | .hbm, ⟨66, _⟩ => ⟨S300000, .i32⟩
  | .hbm, ⟨67, _⟩ => ⟨S1x300000, .i32⟩
  | .hbm, ⟨68, _⟩ => ⟨S300000, .i32⟩
  | .hbm, ⟨69, _⟩ => ⟨S_, .i32⟩
  | .hbm, ⟨70, _⟩ => ⟨S300000, .i32⟩
  | .hbm, ⟨71, _⟩ => ⟨S300000, .i1⟩
  | .hbm, ⟨72, _⟩ => ⟨S_, .i32⟩
  | .hbm, ⟨73, _⟩ => ⟨S300000, .i32⟩
  | .hbm, ⟨74, _⟩ => ⟨S300000, .i32⟩
  | .hbm, ⟨75, _⟩ => ⟨S300000, .i32⟩
  | .hbm, ⟨76, _⟩ => ⟨S300000x1, .i32⟩
  | .hbm, ⟨77, _⟩ => ⟨S300000x256, .f32⟩
  | .hbm, ⟨78, _⟩ => ⟨S_, .i32⟩
  | .hbm, ⟨79, _⟩ => ⟨S300000, .i32⟩
  | .hbm, ⟨80, _⟩ => ⟨S300000, .i1⟩
  | .hbm, ⟨81, _⟩ => ⟨S_, .i32⟩
  | .hbm, ⟨82, _⟩ => ⟨S300000, .i32⟩
  | .hbm, ⟨83, _⟩ => ⟨S300000, .i32⟩
  | .hbm, ⟨84, _⟩ => ⟨S300000, .i32⟩
  | .hbm, ⟨85, _⟩ => ⟨S300000x1, .i32⟩
  | .hbm, ⟨86, _⟩ => ⟨S300000x256, .f32⟩
  | .hbm, ⟨87, _⟩ => ⟨S300000x512, .f32⟩
  | .hbm, ⟨88, _⟩ => ⟨S300000x512, .f32⟩
  | .hbm, ⟨89, _⟩ => ⟨S1x512, .f32⟩
  | .hbm, ⟨90, _⟩ => ⟨S300000x512, .f32⟩
  | .hbm, ⟨91, _⟩ => ⟨S300000x512, .f32⟩
  | .hbm, ⟨92, _⟩ => ⟨S_, .f32⟩
  | .hbm, ⟨93, _⟩ => ⟨S300000x512, .f32⟩
  | .hbm, ⟨94, _⟩ => ⟨S300000x512, .f32⟩
  | .hbm, ⟨95, _⟩ => ⟨S300000x256, .f32⟩
  | .hbm, ⟨96, _⟩ => ⟨S1x256, .f32⟩
  | .hbm, ⟨97, _⟩ => ⟨S300000x256, .f32⟩
  | .hbm, ⟨98, _⟩ => ⟨S300000x256, .f32⟩
  | .hbm, ⟨99, _⟩ => ⟨S_, .f32⟩
  | .hbm, ⟨100, _⟩ => ⟨S300000x256, .f32⟩
  | .hbm, ⟨101, _⟩ => ⟨S300000x256, .f32⟩
  | .hbm, ⟨102, _⟩ => ⟨S300000x2, .f32⟩
  | .hbm, ⟨103, _⟩ => ⟨S1x2, .f32⟩
  | .hbm, ⟨104, _⟩ => ⟨S300000x2, .f32⟩
  | .hbm, ⟨105, _⟩ => ⟨S300000x2, .f32⟩
  | .hbm, ⟨106, _⟩ => ⟨S_, .f32⟩
  | .hbm, ⟨107, _⟩ => ⟨S300000, .f32⟩
  | .hbm, ⟨108, _⟩ => ⟨S_, .f32⟩
  | .hbm, ⟨109, _⟩ => ⟨S300000, .f32⟩
  | .hbm, ⟨110, _⟩ => ⟨S300000, .f32⟩
  | .hbm, ⟨111, _⟩ => ⟨S300000x1, .f32⟩
  | .hbm, ⟨112, _⟩ => ⟨S300000x2, .f32⟩
  | .hbm, ⟨113, _⟩ => ⟨S300000x2, .f32⟩
  | .hbm, ⟨114, _⟩ => ⟨S300000x2, .f32⟩
  | .hbm, ⟨115, _⟩ => ⟨S_, .f32⟩
  | .hbm, ⟨116, _⟩ => ⟨S300000, .f32⟩
  | .hbm, ⟨117, _⟩ => ⟨S300000x1, .f32⟩
  | .hbm, ⟨118, _⟩ => ⟨S300000x1, .f32⟩
  | .hbm, ⟨119, _⟩ => ⟨S300000x2, .f32⟩
  | .hbm, ⟨120, _⟩ => ⟨S300000x2, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call2_cst : Ref sig .tc := ⟨.hbm, 50, rfl⟩
abbrev main_call2_v0 : Ref sig .tc := ⟨.hbm, 51, rfl⟩
abbrev main_call2_cst_0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_cst_1 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_3 : Ref sig .tc := ⟨.hbm, 69, rfl⟩
abbrev main_v38 : Ref sig .tc := ⟨.hbm, 70, rfl⟩
abbrev main_v39 : Ref sig .tc := ⟨.hbm, 71, rfl⟩
abbrev main_c_4 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_5 : Ref sig .tc := ⟨.hbm, 78, rfl⟩
abbrev main_v45 : Ref sig .tc := ⟨.hbm, 79, rfl⟩
abbrev main_v46 : Ref sig .tc := ⟨.hbm, 80, rfl⟩
abbrev main_c_6 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_call3_cst : Ref sig .tc := ⟨.hbm, 92, rfl⟩
abbrev main_call3_v0 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_call4_cst : Ref sig .tc := ⟨.hbm, 99, rfl⟩
abbrev main_call4_v0 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_call5_cst : Ref sig .tc := ⟨.hbm, 106, rfl⟩
abbrev main_call5_v0 : Ref sig .tc := ⟨.hbm, 107, rfl⟩
abbrev main_call5_cst_0 : Ref sig .tc := ⟨.hbm, 108, rfl⟩
abbrev main_call5_v1 : Ref sig .tc := ⟨.hbm, 109, rfl⟩
abbrev main_call5_v2 : Ref sig .tc := ⟨.hbm, 110, rfl⟩
abbrev main_call5_v3 : Ref sig .tc := ⟨.hbm, 111, rfl⟩
abbrev main_call5_v4 : Ref sig .tc := ⟨.hbm, 112, rfl⟩
abbrev main_call5_v5 : Ref sig .tc := ⟨.hbm, 113, rfl⟩
abbrev main_call5_v6 : Ref sig .tc := ⟨.hbm, 114, rfl⟩
abbrev main_call5_cst_1 : Ref sig .tc := ⟨.hbm, 115, rfl⟩
abbrev main_call5_v7 : Ref sig .tc := ⟨.hbm, 116, rfl⟩
abbrev main_call5_v8 : Ref sig .tc := ⟨.hbm, 117, rfl⟩
abbrev main_call5_v9 : Ref sig .tc := ⟨.hbm, 118, rfl⟩
abbrev main_call5_v10 : Ref sig .tc := ⟨.hbm, 119, rfl⟩
abbrev main_v67 : Ref sig .tc := ⟨.hbm, 120, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  concatenates_S300000x256_S300000x256_S300000x512_d1 : Shape.Concatenates [S300000x256, S300000x256] S300000x512 1
  bcast_S512_S1x512_1 : S512.BroadcastsInDim S1x512 (![1] : Fin 1 → Fin S1x512.rank)
  bcast_S1x512_S300000x512_0_1 : S1x512.BroadcastsInDim S300000x512 (![0, 1] : Fin 2 → Fin S300000x512.rank)
  bcast_S_S300000x512 : S_.BroadcastsInDim S300000x512 (![] : Fin 0 → Fin S300000x512.rank)
  bcast_S256_S1x256_1 : S256.BroadcastsInDim S1x256 (![1] : Fin 1 → Fin S1x256.rank)
  bcast_S1x256_S300000x256_0_1 : S1x256.BroadcastsInDim S300000x256 (![0, 1] : Fin 2 → Fin S300000x256.rank)
  bcast_S_S300000x256 : S_.BroadcastsInDim S300000x256 (![] : Fin 0 → Fin S300000x256.rank)
  bcast_S2_S1x2_1 : S2.BroadcastsInDim S1x2 (![1] : Fin 1 → Fin S1x2.rank)
  bcast_S1x2_S300000x2_0_1 : S1x2.BroadcastsInDim S300000x2 (![0, 1] : Fin 2 → Fin S300000x2.rank)
  reducesTo_S300000x2_S300000_d1 : S300000x2.ReducesTo [1] S300000
  h_S_ : 0 < S_.numel
  bcast_S300000x1_S300000x2_0_1 : S300000x1.BroadcastsInDim S300000x2 (![0, 1] : Fin 2 → Fin S300000x2.rank)
  gather_S100000x256_S300000x1_S300000x256_1_0_n_n_0_1_1256_wf : GatherDims.WF S100000x256 S300000x1 S300000x256 [1] [0] [] [0] [] 1 ![1, 256]
  dot_S300000x512_S512x512_S300000x512_1_0_0_1_n_n_wf : DotDims.WF S300000x512 S512x512 S300000x512 [1] [0] [0] [1] [] []
  dot_S300000x512_S512x256_S300000x256_1_0_0_1_n_n_wf : DotDims.WF S300000x512 S512x256 S300000x256 [1] [0] [0] [1] [] []
  dot_S300000x256_S256x2_S300000x2_1_0_0_1_n_n_wf : DotDims.WF S300000x256 S256x2 S300000x2 [1] [0] [0] [1] [] []

variable [Facts₀]

def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def dot_S300000x512_S512x512_S300000x512_1_0_0_1_n_n : DotDims S300000x512 S512x512 S300000x512 where
  lhsContracting := [1]
  rhsContracting := [0]
  lhsNonContracting := [0]
  rhsNonContracting := [1]
  lhsBatch := []
  rhsBatch := []
  wf := dot_S300000x512_S512x512_S300000x512_1_0_0_1_n_n_wf
def dot_S300000x512_S512x256_S300000x256_1_0_0_1_n_n : DotDims S300000x512 S512x256 S300000x256 where
  lhsContracting := [1]
  rhsContracting := [0]
  lhsNonContracting := [0]
  rhsNonContracting := [1]
  lhsBatch := []
  rhsBatch := []
  wf := dot_S300000x512_S512x256_S300000x256_1_0_0_1_n_n_wf
def dot_S300000x256_S256x2_S300000x2_1_0_0_1_n_n : DotDims S300000x256 S256x2 S300000x2 where
  lhsContracting := [1]
  rhsContracting := [0]
  lhsNonContracting := [0]
  rhsNonContracting := [1]
  lhsBatch := []
  rhsBatch := []
  wf := dot_S300000x256_S256x2_S300000x2_1_0_0_1_n_n_wf

class Facts : Prop extends Facts₀ where

variable [Facts]
-- ==== Proof.Spec.lean ====
/-
  The function both programs compute, written once on the extended reals.

  For an edge whose endpoints are the nodes `u` and `v`, the features `x[u]` and `x[v]` (256 numbers each) are
  laid side by side into 512 numbers, sent through two dense layers with a rectifier (512 → 512 → 256) and a
  third dense layer to two logits, and the logits are turned into log-probabilities: each logit less the row's
  maximum, less the logarithm of the sum of the exponentials of those differences.

  An endpoint is given as a 32-bit integer: a negative one counts from the end of the node table (100000 is
  added), and the result is clamped into the table, as a gather clamps its start indices.

  The first layer's product is a sum over the 512 concatenated features; split at 256 it is the sum over `x[u]`
  against the upper half of the weight rows plus the sum over `x[v]` against the lower half (`first_split`):
  a regrouping of one finite sum, which holds in any commutative monoid, so on the extended reals without any
  finiteness assumption.
-/
import Idealize.ShloMosaic.PureOps.Ideal
import Idealize.ShloMosaic.Lib.ValueIdx

noncomputable section

namespace Cert.EdgeMlp

open Idealize.ShloMosaic Idealize.ShloMosaic.ValueIdx

/-! ## Endpoints -/

/-- An endpoint as indexing reads it: a negative one counts from the end of the 100000 nodes. -/
def wrapIdx (v : BitVec 32) : BitVec 32 :=
  Scalar.select (IntOp.cmpi .slt v 0#32) (IntOp.addi v 100000#32) v

/-- The node an endpoint names: read signed and clamped into `[0, 99999]`. -/
def node (v : BitVec 32) : Fin 100000 := ⟨min (wrapIdx v).toInt.toNat (100000 - 1), by omega⟩

/-! ## One row -/

/-- The value the zero word denotes (the rectifier's threshold). -/
abbrev zeroW : EReal := Ideal.ofBits .f32 0x00000000#32
/-- The value the pattern of minus infinity denotes (where the row maximum starts). -/
abbrev ninfW : EReal := Ideal.ofBits .f32 0xFF800000#32

/-- Two logits to two log-probabilities: each less the row maximum `M`, less `log (Σ exp (l k - M))`. -/
def logSoftmax2 (l : Fin 2 → EReal) (j : Fin 2) : EReal :=
  (l j - (Finset.univ : Finset (Fin 2)).fold max ninfW l)
    - Ideal.log (∑ k : Fin 2, Ideal.exp (l k - (Finset.univ : Finset (Fin 2)).fold max ninfW l))

/-- Everything after the first product: its row `z` plus the bias, rectified; the second layer, rectified; the
    third layer; the log-probabilities. -/
def tail (z : Fin 512 → EReal) (b0 : Fin 512 → EReal) (W1 : Fin 512 → Fin 256 → EReal) (b1 : Fin 256 → EReal)
    (W2 : Fin 256 → Fin 2 → EReal) (b2 : Fin 2 → EReal) : Fin 2 → EReal :=
  logSoftmax2 fun j =>
    (∑ k2 : Fin 256, max ((∑ k1 : Fin 512, max (z k1 + b0 k1) zeroW * W1 k1 k2) + b1 k2) zeroW * W2 k2 j) + b2 j

/-- The two endpoints' features side by side. -/
def cat (hr hc : Fin 256 → EReal) (k : Fin 512) : EReal :=
  if h : k.val < 256 then hr ⟨k.val, h⟩ else hc ⟨k.val - 256, by have := k.isLt; omega⟩

/-- The first product as one sum over the 512 concatenated features. -/
def firstWhole (hr hc : Fin 256 → EReal) (W0 : Fin 512 → Fin 512 → EReal) (k1 : Fin 512) : EReal :=
  ∑ k : Fin 512, cat hr hc k * W0 k k1

/-- The first product as two sums of 256, against the upper and the lower weight rows. -/
def firstSplit (hr hc : Fin 256 → EReal) (Wt Wb : Fin 256 → Fin 512 → EReal) (k1 : Fin 512) : EReal :=
  (∑ k : Fin 256, hr k * Wt k k1) + ∑ k : Fin 256, hc k * Wb k k1

/-- Splitting the sum over 512 at 256. -/
theorem first_split (hr hc : Fin 256 → EReal) (W0 : Fin 512 → Fin 512 → EReal) (k1 : Fin 512) :
    firstWhole hr hc W0 k1
      = firstSplit hr hc (fun k => W0 ⟨k.val, by have := k.isLt; omega⟩)
          (fun k => W0 ⟨256 + k.val, by have := k.isLt; omega⟩) k1 := by
  unfold firstWhole firstSplit
  have h := Fin.sum_univ_add (a := 256) (b := 256) (fun k : Fin (256 + 256) => cat hr hc k * W0 k k1)
  refine h.trans (congrArg₂ (· + ·) (Finset.sum_congr rfl fun k _ => ?_) (Finset.sum_congr rfl fun k _ => ?_))
  · have e : cat hr hc (Fin.castAdd 256 k) = hr k := by
      unfold cat
      rw [dif_pos (show (Fin.castAdd 256 k).val < 256 from k.isLt)]
      rfl
    rw [e]; rfl
  · have e : cat hr hc (Fin.natAdd 256 k) = hc k := by
      unfold cat
      rw [dif_neg (show ¬ (Fin.natAdd 256 k).val < 256 from by show ¬ 256 + k.val < 256; omega)]
      exact congrArg hc (Fin.ext (by show 256 + k.val - 256 = k.val; omega))
    rw [e]; rfl

/-! ## The arrays -/

/-- Row `r` of one edge list's result, entry `j`, from the argument arrays: the two endpoints of edge `r` are
    `e[0, r]` and `e[1, r]`. -/
def edgeRow (x : FVec Ideal ⟨2, ![100000, 256]⟩ .f32) (e : IVec ⟨2, ![2, 300000]⟩ 32)
    (W0 : FVec Ideal ⟨2, ![512, 512]⟩ .f32) (b0 : FVec Ideal ⟨1, ![512]⟩ .f32)
    (W1 : FVec Ideal ⟨2, ![512, 256]⟩ .f32) (b1 : FVec Ideal ⟨1, ![256]⟩ .f32)
    (W2 : FVec Ideal ⟨2, ![256, 2]⟩ .f32) (b2 : FVec Ideal ⟨1, ![2]⟩ .f32) (r : Fin 300000) (j : Fin 2) : EReal :=
  tail (firstWhole (fun k => x (ix2 (node (e (ix2 (0 : Fin 2) r))) k)) (fun k => x (ix2 (node (e (ix2 (1 : Fin 2) r))) k))
      (fun a b => W0 (ix2 a b)))
    (fun a => b0 (ix1 a)) (fun a b => W1 (ix2 a b)) (fun a => b1 (ix1 a)) (fun a b => W2 (ix2 a b)) (fun a => b2 (ix1 a)) j

/-- One edge list's whole result `[300000, 2]`. -/
def edgeOut (x : FVec Ideal ⟨2, ![100000, 256]⟩ .f32) (e : IVec ⟨2, ![2, 300000]⟩ 32)
    (W0 : FVec Ideal ⟨2, ![512, 512]⟩ .f32) (b0 : FVec Ideal ⟨1, ![512]⟩ .f32)
    (W1 : FVec Ideal ⟨2, ![512, 256]⟩ .f32) (b1 : FVec Ideal ⟨1, ![256]⟩ .f32)
    (W2 : FVec Ideal ⟨2, ![256, 2]⟩ .f32) (b2 : FVec Ideal ⟨1, ![2]⟩ .f32) : FVec Ideal ⟨2, ![300000, 2]⟩ .f32 :=
  fun i => edgeRow x e W0 b0 W1 b1 W2 b2 ⟨(i 0).val, idx2_lt0 i⟩ ⟨(i 1).val, idx2_lt1 i⟩

theorem edgeOut_ix2 (x : FVec Ideal ⟨2, ![100000, 256]⟩ .f32) (e : IVec ⟨2, ![2, 300000]⟩ 32)
    (W0 : FVec Ideal ⟨2, ![512, 512]⟩ .f32) (b0 : FVec Ideal ⟨1, ![512]⟩ .f32)
    (W1 : FVec Ideal ⟨2, ![512, 256]⟩ .f32) (b1 : FVec Ideal ⟨1, ![256]⟩ .f32)
    (W2 : FVec Ideal ⟨2, ![256, 2]⟩ .f32) (b2 : FVec Ideal ⟨1, ![2]⟩ .f32) (r : Fin 300000) (j : Fin 2) :
    edgeOut x e W0 b0 W1 b1 W2 b2 (ix2 r j) = edgeRow x e W0 b0 W1 b1 W2 b2 r j := rfl

/-! ## The same row as the kernel's region sees it -/

/-- Row `r` of the region's result `[600000, 2]`, entry `j`, from the arrays the region is given: the gathered
    feature rows `HR`, `HC`, the upper and lower halves of the first weights, the biases as `[1, n]` rows. The
    first product is the two sums of 256 (`firstSplit`). -/
def kerRow (HR HC : FVec Ideal ⟨2, ![600000, 256]⟩ .bf16) (Wt Wb : FVec Ideal ⟨2, ![256, 512]⟩ .bf16)
    (b0 : FVec Ideal ⟨2, ![1, 512]⟩ .f32) (W1 : FVec Ideal ⟨2, ![512, 256]⟩ .bf16) (b1 : FVec Ideal ⟨2, ![1, 256]⟩ .f32)
    (W2 : FVec Ideal ⟨2, ![256, 2]⟩ .bf16) (b2 : FVec Ideal ⟨2, ![1, 2]⟩ .f32) (r : Fin 600000) (j : Fin 2) : EReal :=
  tail (firstSplit (fun k => HR (ix2 r k)) (fun k => HC (ix2 r k)) (fun a b => Wt (ix2 a b)) (fun a b => Wb (ix2 a b)))
    (fun a => b0 (ix2 (0 : Fin 1) a)) (fun a b => W1 (ix2 a b)) (fun a => b1 (ix2 (0 : Fin 1) a))
    (fun a b => W2 (ix2 a b)) (fun a => b2 (ix2 (0 : Fin 1) a)) j

/-- The region's whole result. -/
def kerOut (HR HC : FVec Ideal ⟨2, ![600000, 256]⟩ .bf16) (Wt Wb : FVec Ideal ⟨2, ![256, 512]⟩ .bf16)
    (b0 : FVec Ideal ⟨2, ![1, 512]⟩ .f32) (W1 : FVec Ideal ⟨2, ![512, 256]⟩ .bf16) (b1 : FVec Ideal ⟨2, ![1, 256]⟩ .f32)
    (W2 : FVec Ideal ⟨2, ![256, 2]⟩ .bf16) (b2 : FVec Ideal ⟨2, ![1, 2]⟩ .f32) : FVec Ideal ⟨2, ![600000, 2]⟩ .f32 :=
  fun i => kerRow HR HC Wt Wb b0 W1 b1 W2 b2 ⟨(i 0).val, idx2_lt0 i⟩ ⟨(i 1).val, idx2_lt1 i⟩

theorem kerOut_ix2 (HR HC : FVec Ideal ⟨2, ![600000, 256]⟩ .bf16) (Wt Wb : FVec Ideal ⟨2, ![256, 512]⟩ .bf16)
    (b0 : FVec Ideal ⟨2, ![1, 512]⟩ .f32) (W1 : FVec Ideal ⟨2, ![512, 256]⟩ .bf16) (b1 : FVec Ideal ⟨2, ![1, 256]⟩ .f32)
    (W2 : FVec Ideal ⟨2, ![256, 2]⟩ .bf16) (b2 : FVec Ideal ⟨2, ![1, 2]⟩ .f32) (r : Fin 600000) (j : Fin 2) :
    kerOut HR HC Wt Wb b0 W1 b1 W2 b2 (ix2 r j) = kerRow HR HC Wt Wb b0 W1 b1 W2 b2 r j := rfl

end Cert.EdgeMlp

end
-- ==== Proof.LibRowGather.lean ====
/-
  A gather of whole rows, read at an index.

  Indexing a table `x : [N, D]` by a column of start indices `idx : [R, 1]` (what `x[idx]` lowers to for a vector of
  row numbers: offset axis 1, collapsed axis 0, start index map [0], the index vector on axis 1, slices of one row)
  gives `[R, D]`; its element `(r, k)` is `x` at column `k` of the row that start index `idx[r, 0]` names, read as a
  signed integer and clamped into `[0, N - 1]` as a gather clamps every start index. Which row is read depends on
  the index array only at `(r, 0)`, so two gathers over index arrays that agree there read the same row.
-/
import Idealize.ShloMosaic.Lib.ValueIdx

noncomputable section

namespace Cert.Lib.RowGather

open Idealize.ShloMosaic Idealize.ShloMosaic.ValueIdx

variable {α : Type}

/-- Those dimension numbers for a table `[N, D]`, start indices `[R, 1]` and a result `[R, D]`; their conditions
    `wf` are decided on a program's literal shapes. -/
abbrev rowDims (N D R : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The row a start index names: read signed, clamped into `[0, N - 1]`. -/
def rowOf {w : Nat} (N : Nat) (hN : 0 < N) (v : BitVec w) : Fin N := ⟨min v.toInt.toNat (N - 1), by omega⟩

/-- THE GATHER READ AT `(r, k)`: column `k` of the row start index `idx[r, 0]` names. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (k : Fin D) :
    Host.gather (rowDims N D R wf) x idx (ix2 r k) = x (ix2 (rowOf N hN (idx (ix2 r (0 : Fin 1)))) k) := by
  unfold Host.gather
  congr 1
  funext a
  refine Fin.ext ?_
  match a with
  | ⟨0, _⟩ =>
    show (rowDims N D R wf).start (ix2 r k) idx 0 + (rowDims N D R wf).batchCoord (ix2 r k) 0
      + (rowDims N D R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R wf).startIndexMap from List.mem_singleton.mpr rfl)]
    have hsi : (rowDims N D R wf).siIdx (ix2 r k) ⟨List.idxOf (0 : Fin 2) (rowDims N D R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N D R wf).start (ix2 r k) idx 1 + (rowDims N D R wf).batchCoord (ix2 r k) 1
      + (rowDims N D R wf).offCoord (ix2 r k) 1 = k.val
    rw [GatherDims.batchCoord_eq_zero _ _ _ List.not_mem_nil]
    have hs : (rowDims N D R wf).start (ix2 r k) idx 1 = 0 := by
      unfold GatherDims.start
      rw [dif_neg (show ¬ (1 : Fin 2) ∈ (rowDims N D R wf).startIndexMap from (show ¬ (1 : Fin 2) ∈ [(0 : Fin 2)] by decide))]
    have hk : (1 : Fin 2) ∈ (rowDims N D R wf).sKept :=
      ((rowDims N D R wf).mem_sKept 1).mpr ⟨(show ¬ (1 : Fin 2) ∈ [(0 : Fin 2)] by decide), List.not_mem_nil⟩
    have ho : (rowDims N D R wf).offCoord (ix2 r k) 1 = k.val := by
      unfold GatherDims.offCoord
      rw [dif_pos hk]
      rfl
    rw [hs, ho]
    omega

/-- Two row gathers of one table whose start indices agree at `(r, 0)` and `(r', 0)` read the same row. -/
theorem gather_rows_congr {N D R R' w : Nat} (hN : 0 < N)
    (wf : GatherDims.WF ⟨2, ![N, D]⟩ ⟨2, ![R, 1]⟩ ⟨2, ![R, D]⟩ [1] [0] [] [0] [] 1 ![1, D])
    (wf' : GatherDims.WF ⟨2, ![N, D]⟩ ⟨2, ![R', 1]⟩ ⟨2, ![R', D]⟩ [1] [0] [] [0] [] 1 ![1, D])
    (x : (⟨2, ![N, D]⟩ : Shape).Idx → α) (idx : IVec ⟨2, ![R, 1]⟩ w) (idx' : IVec ⟨2, ![R', 1]⟩ w)
    (r : Fin R) (r' : Fin R') (k : Fin D) (h : idx (ix2 r (0 : Fin 1)) = idx' (ix2 r' (0 : Fin 1))) :
    Host.gather (rowDims N D R wf) x idx (ix2 r k) = Host.gather (rowDims N D R' wf') x idx' (ix2 r' k) := by
  rw [gather_rows_apply hN wf, gather_rows_apply hN wf', h]

end Cert.Lib.RowGather

end
-- ==== Proof.RefValue.lean ====
/-
  The reference's two results as the specification's function of the arguments.

  For each of the two edge lists the reference gathers the rows of `x` its endpoints name, lays the two rows side
  by side, applies the three dense layers with their rectifiers and the log-softmax: entry `(r, j)` of its result
  is `edgeRow` of the arguments at `r`, `j`.
-/
import proofs.«407727_j4234837754403_3_alg».proof.Proof.RefRead
import proofs.«407727_j4234837754403_3_alg».proof.Proof.Spec
import proofs.«407727_j4234837754403_3_alg».proof.Proof.LibRowGather
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx Cert.EdgeMlp

section Stages

variable (x0 : (⟨S100000x256, .f32⟩ : BufTy).Contents (Elt Ideal)) (x1 : (⟨S2x300000, .i32⟩ : BufTy).Contents (Elt Ideal))
  (x3 : (⟨S512x512, .f32⟩ : BufTy).Contents (Elt Ideal)) (x4 : (⟨S512, .f32⟩ : BufTy).Contents (Elt Ideal))
  (x5 : (⟨S512x256, .f32⟩ : BufTy).Contents (Elt Ideal)) (x6 : (⟨S256, .f32⟩ : BufTy).Contents (Elt Ideal))
  (x7 : (⟨S256x2, .f32⟩ : BufTy).Contents (Elt Ideal)) (x8 : (⟨S2, .f32⟩ : BufTy).Contents (Elt Ideal))

/-! ## The endpoints -/

/-- The first gather's start index for edge r: the endpoint e[0, r], counted from the end when negative. -/
theorem startCol0 (r : Fin 300000) :
    val_main_v9 (F := Ideal) x1 (ix2 r (0 : Fin 1)) = wrapIdx (x1 (ix2 (0 : Fin 2) r)) := by
  have e9 : idx_main_v9 (ix2 r (0 : Fin 1)) = ix1 r :=
    funext fun a => Fin.ext (by match a with | ⟨0, _⟩ => rfl)
  have e1 : val_main_v1 (F := Ideal) x1 (ix1 r) = x1 (ix2 (0 : Fin 2) r) := by
    rw [val_main_v1_apply, val_main_v0_apply]
    exact congrArg x1 (funext fun a => Fin.ext (by
      match a with
      | ⟨0, _⟩ => rfl
      | ⟨1, _⟩ => exact Nat.mod_eq_of_lt r.isLt))
  rw [val_main_v9_apply, e9, val_main_v8_apply, val_main_v5_apply, val_main_v7_apply, val_main_v4_apply,
    val_main_v6_apply, val_main_c_apply, val_main_c_0_apply, e1]
  rfl

/-- The second gather's start index for edge r: the endpoint e[1, r], counted from the end when negative. -/
theorem startCol1 (r : Fin 300000) :
    val_main_v16 (F := Ideal) x1 (ix2 r (0 : Fin 1)) = wrapIdx (x1 (ix2 (1 : Fin 2) r)) := by
  have e16 : idx_main_v16 (ix2 r (0 : Fin 1)) = ix1 r :=
    funext fun a => Fin.ext (by match a with | ⟨0, _⟩ => rfl)
  have e3 : val_main_v3 (F := Ideal) x1 (ix1 r) = x1 (ix2 (1 : Fin 2) r) := by
    rw [val_main_v3_apply, val_main_v2_apply]
    exact congrArg x1 (funext fun a => Fin.ext (by
      match a with
      | ⟨0, _⟩ => rfl
      | ⟨1, _⟩ => exact Nat.mod_eq_of_lt r.isLt))
  rw [val_main_v16_apply, e16, val_main_v15_apply, val_main_v12_apply, val_main_v14_apply, val_main_v11_apply,
    val_main_v13_apply, val_main_c_1_apply, val_main_c_2_apply, e3]
  rfl

/-! ## The gathered rows and their concatenation -/

/-- The reference's gather of whole rows of the node table, read at (r, k): column k of the row the start
    index at (r, 0) names. -/
theorem gather_apply (x : (⟨S100000x256, .f32⟩ : BufTy).Contents (Elt Ideal))
    (idx : (⟨S300000x1, .i32⟩ : BufTy).Contents (Elt Ideal)) (r : Fin 300000) (k : Fin 256) :
    Host.gather gather_S100000x256_S300000x1_S300000x256_1_0_n_n_0_1_1256 x idx (ix2 r k)
      = x (ix2 (Cert.Lib.RowGather.rowOf 100000 (by decide) (idx (ix2 r (0 : Fin 1)))) k) :=
  Cert.Lib.RowGather.gather_rows_apply (by decide) gather_S100000x256_S300000x1_S300000x256_1_0_n_n_0_1_1256_wf x idx r k

/-- Row r of the first gather is the feature row of the node e[0, r]. -/
theorem rows0 (r : Fin 300000) (k : Fin 256) :
    val_main_v10 (F := Ideal) x0 x1 (ix2 r k) = x0 (ix2 (node (x1 (ix2 (0 : Fin 2) r))) k) := by
  unfold val_main_v10
  rw [gather_apply, startCol0]
  rfl

/-- Row r of the second gather is the feature row of the node e[1, r]. -/
theorem rows1 (r : Fin 300000) (k : Fin 256) :
    val_main_v17 (F := Ideal) x0 x1 (ix2 r k) = x0 (ix2 (node (x1 (ix2 (1 : Fin 2) r))) k) := by
  unfold val_main_v17
  rw [gather_apply, startCol1]
  rfl

/-- Row r of the concatenation is the two feature rows side by side. -/
theorem catRow (r : Fin 300000) (k : Fin 512) :
    val_main_v18 (F := Ideal) x0 x1 (ix2 r k)
      = cat (fun k => x0 (ix2 (node (x1 (ix2 (0 : Fin 2) r))) k)) (fun k => x0 (ix2 (node (x1 (ix2 (1 : Fin 2) r))) k)) k := by
  unfold val_main_v18 cat
  by_cases h : k.val < 256
  · rw [dif_pos h]
    refine (concatenate_pair_apply_left (1 : Fin S300000x512.rank) (val_main_v10 (F := Ideal) x0 x1)
      (val_main_v17 (F := Ideal) x0 x1) concatenates_S300000x256_S300000x256_S300000x512_d1 (ix2 r k) rfl
      (ix2 r (⟨k.val, h⟩ : Fin 256)) (fun b => by match b with | ⟨0, _⟩ => rfl | ⟨1, _⟩ => rfl)).trans ?_
    exact rows0 x0 x1 r ⟨k.val, h⟩
  · rw [dif_neg h]
    have hk : k.val - 256 < 256 := by have := k.isLt; omega
    refine (concatenate_pair_apply_right (1 : Fin S300000x512.rank) (val_main_v10 (F := Ideal) x0 x1)
      (val_main_v17 (F := Ideal) x0 x1) concatenates_S300000x256_S300000x256_S300000x512_d1 (ix2 r k) rfl rfl
      (ix2 r (⟨k.val - 256, hk⟩ : Fin 256))
      (fun b hb => by
        match b, hb with
        | ⟨0, _⟩, _ => rfl
        | ⟨1, _⟩, hb => exact absurd (Fin.ext rfl) hb)
      (by show (k.val - 256) + 256 = k.val; omega)).trans ?_
    exact rows1 x0 x1 r ⟨k.val - 256, hk⟩

/-! ## The three dense layers -/

/-- The first product's row for edge r: the concatenated features against the first weights. -/
def z1 (r : Fin 300000) : Fin 512 → EReal :=
  firstWhole (fun k => x0 (ix2 (node (x1 (ix2 (0 : Fin 2) r))) k)) (fun k => x0 (ix2 (node (x1 (ix2 (1 : Fin 2) r))) k))
    (fun a b => x3 (ix2 a b))

/-- The first layer's output row: the product plus the bias, rectified. -/
def a1 (r : Fin 300000) (k1 : Fin 512) : EReal := max (z1 x0 x1 x3 r k1 + x4 (ix1 k1)) zeroW

/-- The second layer's output row. -/
def a2 (r : Fin 300000) (k2 : Fin 256) : EReal :=
  max ((∑ k1 : Fin 512, a1 x0 x1 x3 x4 r k1 * x5 (ix2 k1 k2)) + x6 (ix1 k2)) zeroW

/-- The two logits of edge r. -/
def logit (r : Fin 300000) (j : Fin 2) : EReal :=
  (∑ k2 : Fin 256, a2 x0 x1 x3 x4 x5 x6 r k2 * x7 (ix2 k2 j)) + x8 (ix1 j)

/-- The specification's row is the log-softmax of these logits. -/
theorem edgeRow_eq (r : Fin 300000) (j : Fin 2) :
    edgeRow x0 x1 x3 x4 x5 x6 x7 x8 r j = logSoftmax2 (logit x0 x1 x3 x4 x5 x6 x7 x8 r) j := rfl

/-- The first dot product at (r, k1) is the sum over the 512 concatenated features. -/
theorem prod1 (r : Fin 300000) (k1 : Fin 512) :
    val_main_v19 (F := Ideal) x0 x1 x3 (ix2 r k1) = z1 x0 x1 x3 r k1 := by
  rw [val_main_v19_apply]
  unfold z1 firstWhole
  refine Finset.sum_congr rfl fun k _ => ?_
  have el : lidx_main_v19 (ix2 r k1) k = ix2 r k :=
    funext fun a => Fin.ext (by match a with | ⟨0, _⟩ => rfl | ⟨1, _⟩ => rfl)
  have er : ridx_main_v19 (ix2 r k1) k = ix2 k k1 :=
    funext fun a => Fin.ext (by match a with | ⟨0, _⟩ => rfl | ⟨1, _⟩ => rfl)
  rw [el, er, catRow]

/-- The first rectifier's output at (r, k1): the product plus the bias, against the zero word's value. -/
theorem act1 (r : Fin 300000) (k1 : Fin 512) :
    val_main_v23 (F := Ideal) x0 x1 x3 x4 (ix2 r k1) = a1 x0 x1 x3 x4 r k1 := by
  have eb : val_main_v21 (F := Ideal) x4 (ix2 r k1) = x4 (ix1 k1) := by
    rw [val_main_v21_apply, val_main_v20_apply]
    exact congrArg x4 (funext fun a => Fin.ext (by match a with | ⟨0, _⟩ => rfl))
  rw [val_main_v23_apply, val_main_v22_apply, prod1, eb, val_main_call0_v0_apply]
  rfl

/-- The second rectifier's output at (r, k2): the second dot product plus its bias, rectified. -/
theorem act2 (r : Fin 300000) (k2 : Fin 256) :
    val_main_v28 (F := Ideal) x0 x1 x3 x4 x5 x6 (ix2 r k2) = a2 x0 x1 x3 x4 x5 x6 r k2 := by
  have ep : val_main_v24 (F := Ideal) x0 x1 x3 x4 x5 (ix2 r k2) = ∑ k1 : Fin 512, a1 x0 x1 x3 x4 r k1 * x5 (ix2 k1 k2) := by
    rw [val_main_v24_apply]
    refine Finset.sum_congr rfl fun k _ => ?_
    have el : lidx_main_v24 (ix2 r k2) k = ix2 r k :=
      funext fun a => Fin.ext (by match a with | ⟨0, _⟩ => rfl | ⟨1, _⟩ => rfl)
    have er : ridx_main_v24 (ix2 r k2) k = ix2 k k2 :=
      funext fun a => Fin.ext (by match a with | ⟨0, _⟩ => rfl | ⟨1, _⟩ => rfl)
    rw [el, er, act1]
  have eb : val_main_v26 (F := Ideal) x6 (ix2 r k2) = x6 (ix1 k2) := by
    rw [val_main_v26_apply, val_main_v25_apply]
    exact congrArg x6 (funext fun a => Fin.ext (by match a with | ⟨0, _⟩ => rfl))
  rw [val_main_v28_apply, val_main_v27_apply, ep, eb, val_main_call1_v0_apply]
  rfl

/-- The third layer's output at (r, j): the third dot product plus its bias. -/
theorem logits (r : Fin 300000) (j : Fin 2) :
    val_main_v32 (F := Ideal) x0 x1 x3 x4 x5 x6 x7 x8 (ix2 r j) = logit x0 x1 x3 x4 x5 x6 x7 x8 r j := by
  have ep : val_main_v29 (F := Ideal) x0 x1 x3 x4 x5 x6 x7 (ix2 r j) = ∑ k2 : Fin 256, a2 x0 x1 x3 x4 x5 x6 r k2 * x7 (ix2 k2 j) := by
    rw [val_main_v29_apply]
    refine Finset.sum_congr rfl fun k _ => ?_
    have el : lidx_main_v29 (ix2 r j) k = ix2 r k :=
      funext fun a => Fin.ext (by match a with | ⟨0, _⟩ => rfl | ⟨1, _⟩ => rfl)
    have er : ridx_main_v29 (ix2 r j) k = ix2 k j :=
      funext fun a => Fin.ext (by match a with | ⟨0, _⟩ => rfl | ⟨1, _⟩ => rfl)
    rw [el, er, act2]
  have eb : val_main_v31 (F := Ideal) x8 (ix2 r j) = x8 (ix1 j) := by
    rw [val_main_v31_apply, val_main_v30_apply]
    exact congrArg x8 (funext fun a => Fin.ext (by match a with | ⟨0, _⟩ => rfl))
  rw [val_main_v32_apply, ep, eb]
  rfl

/-! ## The log-softmax -/

/-- The row maximum of edge r's logits, folded from minus infinity. -/
def rmax (r : Fin 300000) : EReal :=
  (Finset.univ : Finset (Fin 2)).fold max ninfW (logit x0 x1 x3 x4 x5 x6 x7 x8 r)

/-- The reduced index r with the column k put back is (r, k). -/
theorem lift_row (h : S300000x2.Reduces [1] S300000) (r : Fin 300000) (k : Fin (S300000x2.size 1)) :
    h.lift (ix1 r) k = ix2 r (⟨k.val, k.isLt⟩ : Fin 2) := by
  funext c
  apply Fin.ext
  match c with
  | ⟨0, _⟩ => rfl
  | ⟨1, _⟩ => rfl

/-- The reduce with a maximum body over a row's two logits is their maximum folded from minus infinity. -/
theorem rowMax (r : Fin 300000) :
    val_main_call2_v0 (F := Ideal) x0 x1 x3 x4 x5 x6 x7 x8 (ix1 r) = rmax x0 x1 x3 x4 x5 x6 x7 x8 r := by
  have h : S300000x2.Reduces [1] S300000 := by decide
  unfold val_main_call2_v0
  rw [Host.reduce_eq_fold_single (FloatOps.maximumf (F := Ideal) (φ := .f32)) (val_main_v32 (F := Ideal) x0 x1 x3 x4 x5 x6 x7 x8)
    (val_main_call2_cst (F := Ideal)) reducesTo_S300000x2_S300000_d1 h h_S_ (ix1 r)]
  have hf : (val_main_v32 (F := Ideal) x0 x1 x3 x4 x5 x6 x7 x8 ∘ h.lift (ix1 r)) = logit x0 x1 x3 x4 x5 x6 x7 x8 r :=
    funext fun k => (congrArg (val_main_v32 (F := Ideal) x0 x1 x3 x4 x5 x6 x7 x8) (lift_row h r k)).trans
      (logits x0 x1 x3 x4 x5 x6 x7 x8 r ⟨k.val, k.isLt⟩)
  exact congrArg (fun f => Finset.fold max ninfW f (Finset.univ : Finset (Fin 2))) hf

/-- The maximum of minus infinity's pattern and that fold is the fold: the fold starts there. -/
theorem rowMax' (r : Fin 300000) :
    val_main_call2_v2 (F := Ideal) x0 x1 x3 x4 x5 x6 x7 x8 (ix1 r) = rmax x0 x1 x3 x4 x5 x6 x7 x8 r := by
  rw [val_main_call2_v2_apply, rowMax, val_main_call2_v1_apply]
  exact max_eq_right ((Finset.le_fold_max _).mpr (Or.inl le_rfl))

/-- A logit less its row's maximum. -/
theorem shifted (r : Fin 300000) (j : Fin 2) :
    val_main_call2_v5 (F := Ideal) x0 x1 x3 x4 x5 x6 x7 x8 (ix2 r j)
      = logit x0 x1 x3 x4 x5 x6 x7 x8 r j - rmax x0 x1 x3 x4 x5 x6 x7 x8 r := by
  have e4 : idx_main_call2_v4 (ix2 r j) = ix2 r (0 : Fin 1) :=
    funext fun a => Fin.ext (by match a with | ⟨0, _⟩ => rfl | ⟨1, _⟩ => rfl)
  have e3 : idx_main_call2_v3 (ix2 r (0 : Fin 1)) = ix1 r :=
    funext fun a => Fin.ext (by match a with | ⟨0, _⟩ => rfl)
  rw [val_main_call2_v5_apply, val_main_call2_v4_apply, e4, val_main_call2_v3_apply, e3, rowMax', logits]
  rfl

/-- The sum of the exponentials of a row's shifted logits: the zero word it starts from adds nothing. -/
theorem expSum (r : Fin 300000) :
    val_main_call2_v7 (F := Ideal) x0 x1 x3 x4 x5 x6 x7 x8 (ix1 r)
      = ∑ k : Fin 2, Ideal.exp (logit x0 x1 x3 x4 x5 x6 x7 x8 r k - rmax x0 x1 x3 x4 x5 x6 x7 x8 r) := by
  have e0 : val_main_call2_cst_1 (F := Ideal) (Shape.Idx.first h_S_) = 0 := Ideal.ofBits_zero_f32
  rw [val_main_call2_v7_apply, e0, zero_add]
  refine Finset.sum_congr rfl fun k _ => ?_
  have e7 : idx_main_call2_v7 (ix1 r) k = ix2 r k :=
    funext fun a => Fin.ext (by match a with | ⟨0, _⟩ => rfl | ⟨1, _⟩ => rfl)
  rw [e7, val_main_call2_v6_apply, shifted]
  rfl

/-- Entry (r, j) of the first result is the log-softmax of edge r's logits at j. -/
theorem out0_row (r : Fin 300000) (j : Fin 2) :
    val_main_v33 (F := Ideal) x0 x1 x3 x4 x5 x6 x7 x8 (ix2 r j) = logSoftmax2 (logit x0 x1 x3 x4 x5 x6 x7 x8 r) j := by
  have e10 : idx_main_call2_v10 (ix2 r j) = ix2 r (0 : Fin 1) :=
    funext fun a => Fin.ext (by match a with | ⟨0, _⟩ => rfl | ⟨1, _⟩ => rfl)
  have e8 : idx_main_call2_v8 (ix2 r (0 : Fin 1)) = ix1 r :=
    funext fun a => Fin.ext (by match a with | ⟨0, _⟩ => rfl)
  rw [val_main_v33_apply, val_main_call2_v10_apply, e10, val_main_call2_v9_apply, val_main_call2_v8_apply, e8, expSum,
    shifted]
  rfl

end Stages

/-- The first result (edge list `x1`) is the specification's array. -/
theorem out0_eq (x0 : (⟨S100000x256, .f32⟩ : BufTy).Contents (Elt Ideal)) (x1 : (⟨S2x300000, .i32⟩ : BufTy).Contents (Elt Ideal)) (x3 : (⟨S512x512, .f32⟩ : BufTy).Contents (Elt Ideal)) (x4 : (⟨S512, .f32⟩ : BufTy).Contents (Elt Ideal)) (x5 : (⟨S512x256, .f32⟩ : BufTy).Contents (Elt Ideal)) (x6 : (⟨S256, .f32⟩ : BufTy).Contents (Elt Ideal)) (x7 : (⟨S256x2, .f32⟩ : BufTy).Contents (Elt Ideal)) (x8 : (⟨S2, .f32⟩ : BufTy).Contents (Elt Ideal)) :
    val_main_v33 (F := Ideal) x0 x1 x3 x4 x5 x6 x7 x8 = edgeOut x0 x1 x3 x4 x5 x6 x7 x8 := by
  funext i
  obtain ⟨r, j, rfl⟩ : ∃ (r : Fin 300000) (j : Fin 2), i = ix2 r j := ⟨i 0, i 1, eq_ix2 i⟩
  rw [edgeOut_ix2, edgeRow_eq]
  exact out0_row x0 x1 x3 x4 x5 x6 x7 x8 r j

/-- The second result (edge list `x2`) is the specification's array. -/
theorem out1_eq (x0 : (⟨S100000x256, .f32⟩ : BufTy).Contents (Elt Ideal)) (x2 : (⟨S2x300000, .i32⟩ : BufTy).Contents (Elt Ideal)) (x3 : (⟨S512x512, .f32⟩ : BufTy).Contents (Elt Ideal)) (x4 : (⟨S512, .f32⟩ : BufTy).Contents (Elt Ideal)) (x5 : (⟨S512x256, .f32⟩ : BufTy).Contents (Elt Ideal)) (x6 : (⟨S256, .f32⟩ : BufTy).Contents (Elt Ideal)) (x7 : (⟨S256x2, .f32⟩ : BufTy).Contents (Elt Ideal)) (x8 : (⟨S2, .f32⟩ : BufTy).Contents (Elt Ideal)) :
    val_main_v67 (F := Ideal) x0 x2 x3 x4 x5 x6 x7 x8 = edgeOut x0 x2 x3 x4 x5 x6 x7 x8 := by
  -- the program's second half is its first half's operations over the other edge list, so its result is the
  -- first result's function of the arguments, at `x2`
  exact (show val_main_v67 (F := Ideal) x0 x2 x3 x4 x5 x6 x7 x8 = val_main_v33 (F := Ideal) x0 x2 x3 x4 x5 x6 x7 x8 from rfl).trans
    (out0_eq x0 x2 x3 x4 x5 x6 x7 x8)

end Cert.ReferenceIdeal.RefValue

end
-- ==== Proof.Payload.lean ====
/-
  The kernel body's stored value, read at an index.

  The body loads the two blocks of gathered features (4000 rows of 256), the two halves of the first weights, the
  second and third weights and the three bias rows, and stores, for each of its 4000 rows, the two
  log-probabilities: row `p`, entry `q` of what it stores is `tail` of the first product taken as two sums of 256
  (`firstSplit`) over row `p` of the two feature blocks.
-/
import proofs.«407727_j4234837754403_3_alg».proof.Proof.Gen.KernelIdeal.Skeleton
import proofs.«407727_j4234837754403_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.EdgeMlp

/-! ### The product 4000×256 by 256×512 -/

-- At result index `i` and contracted coordinate `c` the left operand is read at `(i 0, c)` and the right one at
-- `(c, i 1)`: the four coordinates, one lemma each.
theorem lhsA_0 (i : S4000x512.Idx) (c : dot_S4000x256_S256x512_S4000x512_1_0_0_1_n_n.contr.Idx) :
    (dot_S4000x256_S256x512_S4000x512_1_0_0_1_n_n.lhsIdx i c 0).val = (i 0).val := by
  unfold DotDims.lhsIdx
  rw [dif_neg (show ¬(0 : Fin S4000x256.rank) ∈ dot_S4000x256_S256x512_S4000x512_1_0_0_1_n_n.lhsBatch by decide), dif_pos (show (0 : Fin S4000x256.rank) ∈ dot_S4000x256_S256x512_S4000x512_1_0_0_1_n_n.lhsNonContracting by decide)]
  rfl
theorem lhsA_1 (i : S4000x512.Idx) (c : dot_S4000x256_S256x512_S4000x512_1_0_0_1_n_n.contr.Idx) :
    (dot_S4000x256_S256x512_S4000x512_1_0_0_1_n_n.lhsIdx i c 1).val = (c ⟨0, by decide⟩).val :=
  dot_S4000x256_S256x512_S4000x512_1_0_0_1_n_n.lhsIdx_val_of_single rfl i c
theorem rhsA_0 (i : S4000x512.Idx) (c : dot_S4000x256_S256x512_S4000x512_1_0_0_1_n_n.contr.Idx) :
    (dot_S4000x256_S256x512_S4000x512_1_0_0_1_n_n.rhsIdx i c 0).val = (c ⟨0, by decide⟩).val :=
  dot_S4000x256_S256x512_S4000x512_1_0_0_1_n_n.rhsIdx_val_of_single rfl i c
theorem rhsA_1 (i : S4000x512.Idx) (c : dot_S4000x256_S256x512_S4000x512_1_0_0_1_n_n.contr.Idx) :
    (dot_S4000x256_S256x512_S4000x512_1_0_0_1_n_n.rhsIdx i c 1).val = (i 1).val := by
  unfold DotDims.rhsIdx
  rw [dif_neg (show ¬(1 : Fin S256x512.rank) ∈ dot_S4000x256_S256x512_S4000x512_1_0_0_1_n_n.rhsBatch by decide), dif_pos (show (1 : Fin S256x512.rank) ∈ dot_S4000x256_S256x512_S4000x512_1_0_0_1_n_n.rhsNonContracting by decide)]
  rfl

/-- Into a zero accumulator the product at row `p`, column `q` is the sum over the 256 contracted coordinates. -/
theorem matmulA_apply (lhs : FVec Ideal S4000x256 .bf16) (rhs : FVec Ideal S256x512 .bf16) (p : Fin 4000) (q : Fin 512) :
    matmul dot_S4000x256_S256x512_S4000x512_1_0_0_1_n_n none lhs rhs (constant (F := Ideal) S4000x512 .f32 0x00000000#32) (ix2 p q)
      = ∑ k : Fin 256, lhs (ix2 p k) * rhs (ix2 k q) := by
  simp only [matmul]
  rw [Ideal.matmul_constant_zero_apply, ← Equiv.sum_comp (ValueIdx.contrEquiv1 dot_S4000x256_S256x512_S4000x512_1_0_0_1_n_n 256 rfl rfl).symm]
  refine Finset.sum_congr rfl fun k _ => ?_
  have hk := ValueIdx.contrEquiv1_symm_val dot_S4000x256_S256x512_S4000x512_1_0_0_1_n_n 256 rfl rfl k
  have el : dot_S4000x256_S256x512_S4000x512_1_0_0_1_n_n.lhsIdx (ix2 p q) ((ValueIdx.contrEquiv1 dot_S4000x256_S256x512_S4000x512_1_0_0_1_n_n 256 rfl rfl).symm k) = ix2 p k := funext fun a => Fin.ext (by
    match a with
    | ⟨0, _⟩ => exact lhsA_0 _ _
    | ⟨1, _⟩ => exact (lhsA_1 _ _).trans hk)
  have er : dot_S4000x256_S256x512_S4000x512_1_0_0_1_n_n.rhsIdx (ix2 p q) ((ValueIdx.contrEquiv1 dot_S4000x256_S256x512_S4000x512_1_0_0_1_n_n 256 rfl rfl).symm k) = ix2 k q := funext fun a => Fin.ext (by
    match a with
    | ⟨0, _⟩ => exact (rhsA_0 _ _).trans hk
    | ⟨1, _⟩ => exact rhsA_1 _ _)
  rw [el, er]

/-! ### The product 4000×512 by 512×256 -/

-- At result index `i` and contracted coordinate `c` the left operand is read at `(i 0, c)` and the right one at
-- `(c, i 1)`: the four coordinates, one lemma each.
theorem lhsB_0 (i : S4000x256.Idx) (c : dot_S4000x512_S512x256_S4000x256_1_0_0_1_n_n.contr.Idx) :
    (dot_S4000x512_S512x256_S4000x256_1_0_0_1_n_n.lhsIdx i c 0).val = (i 0).val := by
  unfold DotDims.lhsIdx
  rw [dif_neg (show ¬(0 : Fin S4000x512.rank) ∈ dot_S4000x512_S512x256_S4000x256_1_0_0_1_n_n.lhsBatch by decide), dif_pos (show (0 : Fin S4000x512.rank) ∈ dot_S4000x512_S512x256_S4000x256_1_0_0_1_n_n.lhsNonContracting by decide)]
  rfl
theorem lhsB_1 (i : S4000x256.Idx) (c : dot_S4000x512_S512x256_S4000x256_1_0_0_1_n_n.contr.Idx) :
    (dot_S4000x512_S512x256_S4000x256_1_0_0_1_n_n.lhsIdx i c 1).val = (c ⟨0, by decide⟩).val :=
  dot_S4000x512_S512x256_S4000x256_1_0_0_1_n_n.lhsIdx_val_of_single rfl i c
theorem rhsB_0 (i : S4000x256.Idx) (c : dot_S4000x512_S512x256_S4000x256_1_0_0_1_n_n.contr.Idx) :
    (dot_S4000x512_S512x256_S4000x256_1_0_0_1_n_n.rhsIdx i c 0).val = (c ⟨0, by decide⟩).val :=
  dot_S4000x512_S512x256_S4000x256_1_0_0_1_n_n.rhsIdx_val_of_single rfl i c
theorem rhsB_1 (i : S4000x256.Idx) (c : dot_S4000x512_S512x256_S4000x256_1_0_0_1_n_n.contr.Idx) :
    (dot_S4000x512_S512x256_S4000x256_1_0_0_1_n_n.rhsIdx i c 1).val = (i 1).val := by
  unfold DotDims.rhsIdx
  rw [dif_neg (show ¬(1 : Fin S512x256.rank) ∈ dot_S4000x512_S512x256_S4000x256_1_0_0_1_n_n.rhsBatch by decide), dif_pos (show (1 : Fin S512x256.rank) ∈ dot_S4000x512_S512x256_S4000x256_1_0_0_1_n_n.rhsNonContracting by decide)]
  rfl

/-- Into a zero accumulator the product at row `p`, column `q` is the sum over the 512 contracted coordinates. -/
theorem matmulB_apply (lhs : FVec Ideal S4000x512 .bf16) (rhs : FVec Ideal S512x256 .bf16) (p : Fin 4000) (q : Fin 256) :
    matmul dot_S4000x512_S512x256_S4000x256_1_0_0_1_n_n none lhs rhs (constant (F := Ideal) S4000x256 .f32 0x00000000#32) (ix2 p q)
      = ∑ k : Fin 512, lhs (ix2 p k) * rhs (ix2 k q) := by
  simp only [matmul]
  rw [Ideal.matmul_constant_zero_apply, ← Equiv.sum_comp (ValueIdx.contrEquiv1 dot_S4000x512_S512x256_S4000x256_1_0_0_1_n_n 512 rfl rfl).symm]
  refine Finset.sum_congr rfl fun k _ => ?_
  have hk := ValueIdx.contrEquiv1_symm_val dot_S4000x512_S512x256_S4000x256_1_0_0_1_n_n 512 rfl rfl k
  have el : dot_S4000x512_S512x256_S4000x256_1_0_0_1_n_n.lhsIdx (ix2 p q) ((ValueIdx.contrEquiv1 dot_S4000x512_S512x256_S4000x256_1_0_0_1_n_n 512 rfl rfl).symm k) = ix2 p k := funext fun a => Fin.ext (by
    match a with
    | ⟨0, _⟩ => exact lhsB_0 _ _
    | ⟨1, _⟩ => exact (lhsB_1 _ _).trans hk)
  have er : dot_S4000x512_S512x256_S4000x256_1_0_0_1_n_n.rhsIdx (ix2 p q) ((ValueIdx.contrEquiv1 dot_S4000x512_S512x256_S4000x256_1_0_0_1_n_n 512 rfl rfl).symm k) = ix2 k q := funext fun a => Fin.ext (by
    match a with
    | ⟨0, _⟩ => exact (rhsB_0 _ _).trans hk
    | ⟨1, _⟩ => exact rhsB_1 _ _)
  rw [el, er]

/-! ### The product 4000×256 by 256×2 -/

-- At result index `i` and contracted coordinate `c` the left operand is read at `(i 0, c)` and the right one at
-- `(c, i 1)`: the four coordinates, one lemma each.
theorem lhsC_0 (i : S4000x2.Idx) (c : dot_S4000x256_S256x2_S4000x2_1_0_0_1_n_n.contr.Idx) :
    (dot_S4000x256_S256x2_S4000x2_1_0_0_1_n_n.lhsIdx i c 0).val = (i 0).val := by
  unfold DotDims.lhsIdx
  rw [dif_neg (show ¬(0 : Fin S4000x256.rank) ∈ dot_S4000x256_S256x2_S4000x2_1_0_0_1_n_n.lhsBatch by decide), dif_pos (show (0 : Fin S4000x256.rank) ∈ dot_S4000x256_S256x2_S4000x2_1_0_0_1_n_n.lhsNonContracting by decide)]
  rfl
theorem lhsC_1 (i : S4000x2.Idx) (c : dot_S4000x256_S256x2_S4000x2_1_0_0_1_n_n.contr.Idx) :
    (dot_S4000x256_S256x2_S4000x2_1_0_0_1_n_n.lhsIdx i c 1).val = (c ⟨0, by decide⟩).val :=
  dot_S4000x256_S256x2_S4000x2_1_0_0_1_n_n.lhsIdx_val_of_single rfl i c
theorem rhsC_0 (i : S4000x2.Idx) (c : dot_S4000x256_S256x2_S4000x2_1_0_0_1_n_n.contr.Idx) :
    (dot_S4000x256_S256x2_S4000x2_1_0_0_1_n_n.rhsIdx i c 0).val = (c ⟨0, by decide⟩).val :=
  dot_S4000x256_S256x2_S4000x2_1_0_0_1_n_n.rhsIdx_val_of_single rfl i c
theorem rhsC_1 (i : S4000x2.Idx) (c : dot_S4000x256_S256x2_S4000x2_1_0_0_1_n_n.contr.Idx) :
    (dot_S4000x256_S256x2_S4000x2_1_0_0_1_n_n.rhsIdx i c 1).val = (i 1).val := by
  unfold DotDims.rhsIdx
  rw [dif_neg (show ¬(1 : Fin S256x2.rank) ∈ dot_S4000x256_S256x2_S4000x2_1_0_0_1_n_n.rhsBatch by decide), dif_pos (show (1 : Fin S256x2.rank) ∈ dot_S4000x256_S256x2_S4000x2_1_0_0_1_n_n.rhsNonContracting by decide)]
  rfl

/-- Into a zero accumulator the product at row `p`, column `q` is the sum over the 256 contracted coordinates. -/
theorem matmulC_apply (lhs : FVec Ideal S4000x256 .bf16) (rhs : FVec Ideal S256x2 .bf16) (p : Fin 4000) (q : Fin 2) :
    matmul dot_S4000x256_S256x2_S4000x2_1_0_0_1_n_n none lhs rhs (constant (F := Ideal) S4000x2 .f32 0x00000000#32) (ix2 p q)
      = ∑ k : Fin 256, lhs (ix2 p k) * rhs (ix2 k q) := by
  simp only [matmul]
  rw [Ideal.matmul_constant_zero_apply, ← Equiv.sum_comp (ValueIdx.contrEquiv1 dot_S4000x256_S256x2_S4000x2_1_0_0_1_n_n 256 rfl rfl).symm]
  refine Finset.sum_congr rfl fun k _ => ?_
  have hk := ValueIdx.contrEquiv1_symm_val dot_S4000x256_S256x2_S4000x2_1_0_0_1_n_n 256 rfl rfl k
  have el : dot_S4000x256_S256x2_S4000x2_1_0_0_1_n_n.lhsIdx (ix2 p q) ((ValueIdx.contrEquiv1 dot_S4000x256_S256x2_S4000x2_1_0_0_1_n_n 256 rfl rfl).symm k) = ix2 p k := funext fun a => Fin.ext (by
    match a with
    | ⟨0, _⟩ => exact lhsC_0 _ _
    | ⟨1, _⟩ => exact (lhsC_1 _ _).trans hk)
  have er : dot_S4000x256_S256x2_S4000x2_1_0_0_1_n_n.rhsIdx (ix2 p q) ((ValueIdx.contrEquiv1 dot_S4000x256_S256x2_S4000x2_1_0_0_1_n_n 256 rfl rfl).symm k) = ix2 k q := funext fun a => Fin.ext (by
    match a with
    | ⟨0, _⟩ => exact (rhsC_0 _ _).trans hk
    | ⟨1, _⟩ => exact rhsC_1 _ _)
  rw [el, er]

/-! ### Columns: a vector of 4000 as one column, and one column over two -/

/-- A vector `[4000]` cast to a column `[4000, 1]` reads, in row `p`, its entry `p`. -/
theorem col_cast_apply (v : FVec Ideal S4000 .f32) (p : Fin 4000) (u : Fin 1) :
    shapeCast S4000x1 v shapeCasts_S4000_S4000x1 (ix2 p u) = v (ix1 p) :=
  shapeCast_apply v shapeCasts_S4000_S4000x1 (ix2 p u) (ix1 p) (by
    have hu : u.val = 0 := by omega
    rw [Shape.rowMajor_val_one, Shape.rowMajor_val_two]
    show p.val = p.val * 1 + u.val
    omega)

/-- A column `[4000, 1]` broadcast to `[4000, 2]` reads, in row `p`, the column's entry of that row. -/
theorem col_bcast_apply (v : FVec Ideal S4000x1 .f32) (p : Fin 4000) (q : Fin 2) :
    broadcastTo S4000x2 v broadcasts_S4000x1_S4000x2 (ix2 p q) = v (ix2 p (0 : Fin 1)) := by
  refine broadcastTo_apply v broadcasts_S4000x1_S4000x2 (ix2 p q) (ix2 p (0 : Fin 1)) fun ax => ?_
  match ax with
  | ⟨0, _⟩ =>
    show p.val = if (4000 : Nat) = 1 then 0 else p.val
    rw [if_neg (by decide)]
  | ⟨1, _⟩ => rfl

/-! ### The two reductions along a row -/

/-- Over row `p` of a `[4000, 2]` array, the index with `k` put back on the reduced axis is `(p, k)`. -/
theorem lift_row (p : Fin 4000) (k : Fin 2) : reduces_S4000x2_S4000.lift (ix1 p) k = ix2 p k :=
  funext fun c => Fin.ext (by
    match c with
    | ⟨0, _⟩ => rfl
    | ⟨1, _⟩ => rfl)

/-- The row maximum: the fold of `max` over the row's two entries, started at the value of the pattern of
    minus infinity. -/
theorem rowMax_apply (l : FVec Ideal S4000x2 .f32) (hφ : FKind.Formats .f32)
    (hacc : (0xFF800000#32 : BitVec 32) = 0xFF800000#32) (p : Fin 4000) :
    multiReduction (F := Ideal) .maximumf [1] S4000 l 0xFF800000#32 reduces_S4000x2_S4000 hφ hacc (ix1 p)
      = (Finset.univ : Finset (Fin 2)).fold max ninfW (fun k => l (ix2 p k)) :=
  (Ideal.multiReduction_maximumf_single l _ reduces_S4000x2_S4000 hφ hacc (ix1 p)).trans
    (congrArg (fun f : Fin 2 → EReal => (Finset.univ : Finset (Fin 2)).fold max ninfW f)
      (funext fun k => congrArg l (lift_row p k)))

/-- The row sum: the sum of the row's two entries. -/
theorem rowSum_apply (e : FVec Ideal S4000x2 .f32) (hφ : FKind.Formats .f32)
    (hacc : (0x00000000#32 : BitVec 32) = 0x00000000#32) (p : Fin 4000) :
    multiReduction (F := Ideal) .add [1] S4000 e 0x00000000#32 reduces_S4000x2_S4000 hφ hacc (ix1 p)
      = ∑ k : Fin 2, e (ix2 p k) :=
  (Ideal.multiReduction_add_single e _ reduces_S4000x2_S4000 hφ hacc (ix1 p)).trans
    (Finset.sum_congr rfl fun k _ => congrArg e (lift_row p k))

/-! ### The log-probabilities of a row -/

/-- The stored value is the log-softmax of the row of logits. -/
theorem logSoftmax_apply (l : FVec Ideal S4000x2 .f32) (p : Fin 4000) (q : Fin 2) :
    k0_pay1 (F := Ideal) l (ix2 p q) = logSoftmax2 (fun j => l (ix2 p j)) q := by
  have hM : ∀ j : Fin 2,
      broadcastTo S4000x2 (shapeCast S4000x1
          (multiReduction (F := Ideal) .maximumf [1] S4000 l 0xFF800000#32 reduces_S4000x2_S4000 (.inl rfl) rfl)
          shapeCasts_S4000_S4000x1) broadcasts_S4000x1_S4000x2 (ix2 p j)
        = (Finset.univ : Finset (Fin 2)).fold max ninfW (fun k => l (ix2 p k)) := fun j =>
    (col_bcast_apply _ p j).trans ((col_cast_apply _ p 0).trans (rowMax_apply l _ _ p))
  unfold k0_pay1 logSoftmax2
  simp only [subf_apply, hM]
  refine congrArg (fun t => (l (ix2 p q) - (Finset.univ : Finset (Fin 2)).fold max ninfW (fun k => l (ix2 p k))) - t) ?_
  refine (col_bcast_apply _ p q).trans ?_
  show Ideal.log (shapeCast S4000x1 _ shapeCasts_S4000_S4000x1 (ix2 p (0 : Fin 1))) = _
  refine congrArg Ideal.log ((col_cast_apply _ p 0).trans ((rowSum_apply _ _ _ p).trans ?_))
  refine Finset.sum_congr rfl fun k _ => ?_
  show Ideal.exp (l (ix2 p k) - _) = _
  exact congrArg (fun t => Ideal.exp (l (ix2 p k) - t)) (hM k)

/-! ### The logits of a row -/

/-- The three dense layers at row `p`, entry `j`: the first product as the two sums of 256. -/
theorem logits_apply (x0 x1 : Vec Ideal S4000x256 .bf16) (x2 x3 : Vec Ideal S256x512 .bf16) (x4 : Vec Ideal S1x512 .f32)
    (x5 : Vec Ideal S512x256 .bf16) (x6 : Vec Ideal S1x256 .f32) (x7 : Vec Ideal S256x2 .bf16) (x8 : Vec Ideal S1x2 .f32)
    (p : Fin 4000) (j : Fin 2) :
    k0_pay2 (F := Ideal) x0 x1 x2 x3 x4 x5 x6 x7 x8 (ix2 p j)
      = (∑ k2 : Fin 256, max ((∑ k1 : Fin 512,
            max (firstSplit (fun k => x0 (ix2 p k)) (fun k => x1 (ix2 p k)) (fun a b => x2 (ix2 a b))
                  (fun a b => x3 (ix2 a b)) k1 + x4 (ix2 (0 : Fin 1) k1)) zeroW * x5 (ix2 k1 k2))
          + x6 (ix2 (0 : Fin 1) k2)) zeroW * x7 (ix2 k2 j)) + x8 (ix2 (0 : Fin 1) j) := by
  unfold k0_pay2 firstSplit
  simp only [shapeCast_self, addf_apply, maximumf_apply, truncf_apply, broadcast_apply, broadcastTo_1b_ab_apply,
    matmulA_apply, matmulB_apply, matmulC_apply]
  rfl

/-- What the body stores, at row `p` and entry `q`, from the blocks it loaded. -/
theorem payload_apply (x0 x1 : Vec Ideal S4000x256 .bf16) (x2 x3 : Vec Ideal S256x512 .bf16) (x4 : Vec Ideal S1x512 .f32)
    (x5 : Vec Ideal S512x256 .bf16) (x6 : Vec Ideal S1x256 .f32) (x7 : Vec Ideal S256x2 .bf16) (x8 : Vec Ideal S1x2 .f32)
    (p : Fin 4000) (q : Fin 2) :
    k0_pay1 (F := Ideal) (k0_pay2 (F := Ideal) x0 x1 x2 x3 x4 x5 x6 x7 x8) (ix2 p q)
      = tail (firstSplit (fun k => x0 (ix2 p k)) (fun k => x1 (ix2 p k)) (fun a b => x2 (ix2 a b)) (fun a b => x3 (ix2 a b)))
          (fun a => x4 (ix2 (0 : Fin 1) a)) (fun a b => x5 (ix2 a b)) (fun a => x6 (ix2 (0 : Fin 1) a))
          (fun a b => x7 (ix2 a b)) (fun a => x8 (ix2 (0 : Fin 1) a)) q := by
  refine (logSoftmax_apply _ p q).trans ?_
  unfold tail
  exact congrArg (fun l : Fin 2 → EReal => logSoftmax2 l q)
    (funext fun j => logits_apply x0 x1 x2 x3 x4 x5 x6 x7 x8 p j)

end Cert.KernelIdeal.Payload

end
-- ==== Proof.Blocks.lean ====
/-
  From the blocks the grid points write back to the region's whole result.

  The region runs the body at 150 grid points; point `t` is given rows `4000 t … 4000 t + 3999` of the two gathered
  feature arrays and the weights and biases whole, and writes back rows `4000 t … 4000 t + 3999` of the result. Each
  row the body stores depends only on the same row of the two feature blocks, so what point `t` writes back is its
  block of ONE whole-array function (`regionOut`: `kerOut` of the arrays the region is given), the 150 blocks tile the
  600000 rows, and the result array ends holding that function.
-/
import proofs.«407727_j4234837754403_3_alg».proof.Proof.Gen.KernelIdeal.Frame
import proofs.«407727_j4234837754403_3_alg».proof.Proof.Payload
import proofs.«407727_j4234837754403_3_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem Cert.EdgeMlp
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The region's result as one function of the arrays it is given, index by index. -/
abbrev regionOut (c : Dev nD) : S600000x2.Idx → Elt Ideal .f32 :=
  kerOut (V m c main_v12) (V m c main_v19) (V m c main_v21) (V m c main_v23) (V m c main_v26) (V m c main_v24)
    (V m c main_v27) (V m c main_v25) (V m c main_v28)

/-- The printed index maps over the grid: the two feature windows and the result window are at block `t` of
    their rows at point `t`, every other block index is zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_9.index t (0 : Fin 2) = t.val ∧ win0_9.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row `p` of point `t`'s block is row `4000 t + p` of the array. -/
def rowAt (t : Fin cfg0.N) (p : Fin 4000) : Fin 600000 :=
  ⟨t.val * 4000 + p.val, by have := t.isLt; have hN : cfg0.N = 150 := N_0; have := p.isLt; omega⟩

/-! ## Each window's block at a point, read off its array -/

theorem read0 (c : Dev nD) (t : Fin cfg0.N) (p : Fin 4000) (k : Fin 256) :
    iblk m c 0 t (ix2 p k) = V m c main_v12 (ix2 (rowAt t p) k) := by
  show V m c main_v12 (((cfg0.win 0).blk t).view.emb (ix2 p k)) = V m c main_v12 (ix2 (rowAt t p) k)
  refine congrArg (V m c main_v12) (funext fun a => Fin.ext ?_)
  obtain ⟨e0, e1, -⟩ := idx_facts t
  match a with
  | ⟨0, _⟩ => show win0_0.index t (0 : Fin 2) * 4000 + 1 * p.val = t.val * 4000 + p.val; omega
  | ⟨1, _⟩ => show win0_0.index t (1 : Fin 2) * 256 + 1 * k.val = k.val; omega

theorem read1 (c : Dev nD) (t : Fin cfg0.N) (p : Fin 4000) (k : Fin 256) :
    iblk m c 1 t (ix2 p k) = V m c main_v19 (ix2 (rowAt t p) k) := by
  show V m c main_v19 (((cfg0.win 1).blk t).view.emb (ix2 p k)) = V m c main_v19 (ix2 (rowAt t p) k)
  refine congrArg (V m c main_v19) (funext fun a => Fin.ext ?_)
  obtain ⟨-, -, e0, e1, -⟩ := idx_facts t
  match a with
  | ⟨0, _⟩ => show win0_1.index t (0 : Fin 2) * 4000 + 1 * p.val = t.val * 4000 + p.val; omega
  | ⟨1, _⟩ => show win0_1.index t (1 : Fin 2) * 256 + 1 * k.val = k.val; omega

theorem read2 (c : Dev nD) (t : Fin cfg0.N) (a' : Fin 256) (b' : Fin 512) :
    iblk m c 2 t (ix2 a' b') = V m c main_v21 (ix2 a' b') := by
  show V m c main_v21 (((cfg0.win 2).blk t).view.emb (ix2 a' b')) = V m c main_v21 (ix2 a' b')
  refine congrArg (V m c main_v21) (funext fun a => Fin.ext ?_)
  obtain ⟨-, -, -, -, -, -, e0, e1, -⟩ := idx_facts t
  match a with
  | ⟨0, _⟩ => show win0_2.index t (0 : Fin 2) * 256 + 1 * a'.val = a'.val; omega
  | ⟨1, _⟩ => show win0_2.index t (1 : Fin 2) * 512 + 1 * b'.val = b'.val; omega

theorem read3 (c : Dev nD) (t : Fin cfg0.N) (a' : Fin 256) (b' : Fin 512) :
    iblk m c 3 t (ix2 a' b') = V m c main_v23 (ix2 a' b') := by
  show V m c main_v23 (((cfg0.win 3).blk t).view.emb (ix2 a' b')) = V m c main_v23 (ix2 a' b')
  refine congrArg (V m c main_v23) (funext fun a => Fin.ext ?_)
  obtain ⟨-, -, -, -, -, -, -, -, e0, e1, -⟩ := idx_facts t
  match a with
  | ⟨0, _⟩ => show win0_3.index t (0 : Fin 2) * 256 + 1 * a'.val = a'.val; omega
  | ⟨1, _⟩ => show win0_3.index t (1 : Fin 2) * 512 + 1 * b'.val = b'.val; omega

theorem read4 (c : Dev nD) (t : Fin cfg0.N) (a' : Fin 1) (b' : Fin 512) :
    iblk m c 4 t (ix2 a' b') = V m c main_v26 (ix2 a' b') := by
  show V m c main_v26 (((cfg0.win 4).blk t).view.emb (ix2 a' b')) = V m c main_v26 (ix2 a' b')
  refine congrArg (V m c main_v26) (funext fun a => Fin.ext ?_)
  obtain ⟨-, -, -, -, -, -, -, -, -, -, e0, e1, -⟩ := idx_facts t
  match a with
  | ⟨0, _⟩ => show win0_4.index t (0 : Fin 2) * 1 + 1 * a'.val = a'.val; omega
  | ⟨1, _⟩ => show win0_4.index t (1 : Fin 2) * 512 + 1 * b'.val = b'.val; omega

theorem read5 (c : Dev nD) (t : Fin cfg0.N) (a' : Fin 512) (b' : Fin 256) :
    iblk m c 5 t (ix2 a' b') = V m c main_v24 (ix2 a' b') := by
  show V m c main_v24 (((cfg0.win 5).blk t).view.emb (ix2 a' b')) = V m c main_v24 (ix2 a' b')
  refine congrArg (V m c main_v24) (funext fun a => Fin.ext ?_)
  obtain ⟨-, -, -, -, -, -, -, -, -, -, -, -, e0, e1, -⟩ := idx_facts t
  match a with
  | ⟨0, _⟩ => show win0_5.index t (0 : Fin 2) * 512 + 1 * a'.val = a'.val; omega
  | ⟨1, _⟩ => show win0_5.index t (1 : Fin 2) * 256 + 1 * b'.val = b'.val; omega

theorem read6 (c : Dev nD) (t : Fin cfg0.N) (a' : Fin 1) (b' : Fin 256) :
    iblk m c 6 t (ix2 a' b') = V m c main_v27 (ix2 a' b') := by
  show V m c main_v27 (((cfg0.win 6).blk t).view.emb (ix2 a' b')) = V m c main_v27 (ix2 a' b')
  refine congrArg (V m c main_v27) (funext fun a => Fin.ext ?_)
  obtain ⟨-, -, -, -, -, -, -, -, -, -, -, -, -, -, e0, e1, -⟩ := idx_facts t
  match a with
  | ⟨0, _⟩ => show win0_6.index t (0 : Fin 2) * 1 + 1 * a'.val = a'.val; omega
  | ⟨1, _⟩ => show win0_6.index t (1 : Fin 2) * 256 + 1 * b'.val = b'.val; omega

theorem read7 (c : Dev nD) (t : Fin cfg0.N) (a' : Fin 256) (b' : Fin 2) :
    iblk m c 7 t (ix2 a' b') = V m c main_v25 (ix2 a' b') := by
  show V m c main_v25 (((cfg0.win 7).blk t).view.emb (ix2 a' b')) = V m c main_v25 (ix2 a' b')
  refine congrArg (V m c main_v25) (funext fun a => Fin.ext ?_)
  obtain ⟨-, -, -, -, -, -, -, -, -, -, -, -, -, -, -, -, e0, e1, -⟩ := idx_facts t
  match a with
  | ⟨0, _⟩ => show win0_7.index t (0 : Fin 2) * 256 + 1 * a'.val = a'.val; omega
  | ⟨1, _⟩ => show win0_7.index t (1 : Fin 2) * 2 + 1 * b'.val = b'.val; omega

theorem read8 (c : Dev nD) (t : Fin cfg0.N) (a' : Fin 1) (b' : Fin 2) :
    iblk m c 8 t (ix2 a' b') = V m c main_v28 (ix2 a' b') := by
  show V m c main_v28 (((cfg0.win 8).blk t).view.emb (ix2 a' b')) = V m c main_v28 (ix2 a' b')
  refine congrArg (V m c main_v28) (funext fun a => Fin.ext ?_)
  obtain ⟨-, -, -, -, -, -, -, -, -, -, -, -, -, -, -, -, -, -, e0, e1⟩ := idx_facts t
  match a with
  | ⟨0, _⟩ => show win0_8.index t (0 : Fin 2) * 1 + 1 * a'.val = a'.val; omega
  | ⟨1, _⟩ => show win0_8.index t (1 : Fin 2) * 2 + 1 * b'.val = b'.val; omega

/-- The array index under entry `(p, q)` of the result window's block at point `t`. -/
theorem emb9 (t : Fin cfg0.N) (p : Fin 4000) (q : Fin 2) :
    ((cfg0.win 9).blk t).view.emb (ix2 p q) = (ix2 (rowAt t p) q : S600000x2.Idx) := by
  funext a; apply Fin.ext
  obtain ⟨-, -, -, -, e0, e1, -⟩ := idx_facts t
  match a with
  | ⟨0, _⟩ => show win0_9.index t (0 : Fin 2) * 4000 + 1 * p.val = t.val * 4000 + p.val; omega
  | ⟨1, _⟩ => show win0_9.index t (1 : Fin 2) * 2 + 1 * q.val = q.val; omega

/-! ## What a point writes back, the cover, the whole result -/

/-- WHAT POINT `t` WRITES BACK is block `t` of `regionOut`. -/
theorem flushed_eq (c : Dev nD) (t : Fin cfg0.N) :
    (dats m 0 c).flushed 9 t = ((cfg0.win 9).blk t).view.read (Elt Ideal) (regionOut m c) := by
  show (cfg0.win 9).cut (grid0.coords t) ((dats m 0 c).after 9 t) = _
  rw [after0_9]
  unfold out0_9
  rw [View.canon_unit_zero hz]
  simp only [View.ld_unit_zero (S := S4000x256) hz, View.ld_unit_zero (S := S256x512) hz, View.ld_unit_zero (S := S1x512) hz,
    View.ld_unit_zero (S := S512x256) hz, View.ld_unit_zero (S := S1x256) hz, View.ld_unit_zero (S := S256x2) hz,
    View.ld_unit_zero (S := S1x2) hz]
  funext j
  obtain ⟨p, q, rfl⟩ : ∃ (p : Fin 4000) (q : Fin 2), j = ix2 p q := ⟨j 0, j 1, eq_ix2 j⟩
  show k0_pay1 (F := Ideal) (k0_pay2 (F := Ideal) (iblk m c 0 t) (iblk m c 1 t) (iblk m c 2 t) (iblk m c 3 t) (iblk m c 4 t)
      (iblk m c 5 t) (iblk m c 6 t) (iblk m c 7 t) (iblk m c 8 t)) (ix2 p q)
    = regionOut m c (((cfg0.win 9).blk t).view.emb (ix2 p q))
  rw [emb9 t p q]
  refine (Cert.KernelIdeal.Payload.payload_apply (iblk m c 0 t) (iblk m c 1 t) (iblk m c 2 t) (iblk m c 3 t) (iblk m c 4 t)
    (iblk m c 5 t) (iblk m c 6 t) (iblk m c 7 t) (iblk m c 8 t) p q).trans ?_
  show _ = kerRow (V m c main_v12) (V m c main_v19) (V m c main_v21) (V m c main_v23) (V m c main_v26) (V m c main_v24)
    (V m c main_v27) (V m c main_v25) (V m c main_v28) (rowAt t p) q
  unfold kerRow
  simp only [read0 m c t, read1 m c t, read2 m c t, read3 m c t, read4 m c t, read5 m c t, read6 m c t, read7 m c t, read8 m c t]

/-- An index of the result array is in point `t`'s block iff each coordinate is in the block's range. -/
theorem mem_blk (t : Fin cfg0.N) (i : S600000x2.Idx) :
    i ∈ ((cfg0.win 9).blk t).view.set ↔ ∀ a : Fin 2, win0_9.index t a * S4000x2.size a ≤ (i a).val
      ∧ (i a).val < win0_9.index t a * S4000x2.size a + S4000x2.size a := by
  show i ∈ ((View.whole main_v29).slice (win0_9.rect t)).set ↔ _
  rw [View.set_slice_whole, Rect.mem_set_unit]
  exact Iff.rfl

/-- Every row is in the block of the point `row / 4000`. -/
theorem cover (i : S600000x2.Idx) :
    ∃ t : Fin cfg0.N, (cfg0.win 9).flush t = true ∧ i ∈ ((cfg0.win 9).blk t).view.set := by
  have hi0 : (i 0).val < 600000 := (i 0).isLt
  have hi1 : (i 1).val < 2 := (i 1).isLt
  have hN : cfg0.N = 150 := N_0
  refine ⟨⟨(i 0).val / 4000, by omega⟩, flush0_9 _, ?_⟩
  rw [mem_blk]
  obtain ⟨-, -, -, -, e0, e1, -⟩ := idx_facts ⟨(i 0).val / 4000, by omega⟩
  intro a
  match a with
  | ⟨0, _⟩ =>
    show win0_9.index ⟨(i 0).val / 4000, _⟩ (0 : Fin 2) * 4000 ≤ (i 0).val
      ∧ (i 0).val < win0_9.index ⟨(i 0).val / 4000, _⟩ (0 : Fin 2) * 4000 + 4000
    rw [e0]; show (i 0).val / 4000 * 4000 ≤ (i 0).val ∧ (i 0).val < (i 0).val / 4000 * 4000 + 4000; omega
  | ⟨1, _⟩ =>
    show win0_9.index ⟨(i 0).val / 4000, _⟩ (1 : Fin 2) * 2 ≤ (i 1).val
      ∧ (i 1).val < win0_9.index ⟨(i 0).val / 4000, _⟩ (1 : Fin 2) * 2 + 2
    rw [e1]; omega

/-- THE RESULT ARRAY after the region: `regionOut`. -/
theorem final (c : Dev nD) : (dats m 0 c).arrAt 9 cfg0.N = regionOut m c :=
  (dats m 0 c).arrAt_eq_of_cover 9 (regionOut m c) (fun t _ => flushed_eq m c t) (cover)

end Cert.KernelIdeal.Blocks

end
-- ==== Proof.Prefix.lean ====
/-
  What the region is given: each of its nine input arrays, read index by index from the program's arguments.

  Before the region the host lines lay the two edge lists end to end along their edge axis (600000 edges), take
  the row of first endpoints and the row of second endpoints, let a negative endpoint count from the end of the
  node table, and gather the rows of `x` the endpoints name (`x` first converted to a shorter float format: no change
  of value at exact arithmetic). Edge `r` of the joined list is edge `r` of the first list, edge `300000 + r` is edge
  `r` of the second. The first weights are cut into their upper and lower 256 rows, the other weights are converted
  (no change of value), and each bias `[n]` is reshaped to a row `[1, n]`.
-/
import proofs.«407727_j4234837754403_3_alg».proof.Proof.Gen.KernelIdeal.Frame
import proofs.«407727_j4234837754403_3_alg».proof.Proof.Spec
import proofs.«407727_j4234837754403_3_alg».proof.Proof.LibRowGather
import Idealize.ShloMosaic.Lib.Pipeline.Value
import Idealize.ShloMosaic.Lib.ValueIdx
import Idealize.ShloMosaic.Lib.StableHlo.Run

set_option maxRecDepth 16384

noncomputable section

namespace Cert.KernelIdeal.Prefix

open Cert.KernelIdeal Cert.KernelIdeal.Gen Idealize.ShloMosaic Idealize.ShloMosaic.TcCoe Idealize.ShloMosaic.ValueIdx
open Idealize.SL.Sem Idealize.ShloMosaic.StableHlo Cert.EdgeMlp Cert.Lib.RowGather

/-- A row below 300000 of the joined list. -/
def lo (r : Fin 300000) : Fin 600000 := ⟨r.val, by have := r.isLt; omega⟩
/-- A row from 300000 on of the joined list. -/
def hi (r : Fin 300000) : Fin 600000 := ⟨300000 + r.val, by have := r.isLt; omega⟩

/-! ## The joined edge lists -/

/-- The first endpoints of the joined list are its row 0. -/
theorem joined_row0 (e1 e2 : (⟨S2x300000, .i32⟩ : BufTy).Contents (Elt Ideal)) (R : Fin 600000) :
    shapeCast S600000 (extractStridedSlice S1x600000 ![0, 0] (concatenate S2x600000 1 [⟨S2x300000, e1⟩, ⟨S2x300000, e2⟩] concatenates_S2x300000_S2x300000_S2x600000_d1) slices_S2x600000_S1x600000_0_0) shapeCasts_S1x600000_S600000 (ix1 R)
      = (concatenate S2x600000 1 [⟨S2x300000, e1⟩, ⟨S2x300000, e2⟩] concatenates_S2x300000_S2x300000_S2x600000_d1) (ix2 (0 : Fin 2) R) := by
  refine (shapeCast_apply _ shapeCasts_S1x600000_S600000 (ix1 R) (ix2 (0 : Fin 1) R)
    (by rewrite [Shape.rowMajor_val_two, Shape.rowMajor_val_one]; show 0 * 600000 + R.val = R.val; omega)).trans ?_
  exact extractStridedSlice_apply ![0, 0] _ slices_S2x600000_S1x600000_0_0 (ix2 (0 : Fin 1) R) (ix2 (0 : Fin 2) R)
    (fun a => match a with | ⟨0, _⟩ => by show 0 = 0 + 0; rfl | ⟨1, _⟩ => by show R.val = 0 + R.val; omega)

/-- The second endpoints of the joined list are its row 1. -/
theorem joined_row1 (e1 e2 : (⟨S2x300000, .i32⟩ : BufTy).Contents (Elt Ideal)) (R : Fin 600000) :
    shapeCast S600000 (extractStridedSlice S1x600000 ![1, 0] (concatenate S2x600000 1 [⟨S2x300000, e1⟩, ⟨S2x300000, e2⟩] concatenates_S2x300000_S2x300000_S2x600000_d1) slices_S2x600000_S1x600000_1_0) shapeCasts_S1x600000_S600000 (ix1 R)
      = (concatenate S2x600000 1 [⟨S2x300000, e1⟩, ⟨S2x300000, e2⟩] concatenates_S2x300000_S2x300000_S2x600000_d1) (ix2 (1 : Fin 2) R) := by
  refine (shapeCast_apply _ shapeCasts_S1x600000_S600000 (ix1 R) (ix2 (0 : Fin 1) R)
    (by rewrite [Shape.rowMajor_val_two, Shape.rowMajor_val_one]; show 0 * 600000 + R.val = R.val; omega)).trans ?_
  exact extractStridedSlice_apply ![1, 0] _ slices_S2x600000_S1x600000_1_0 (ix2 (0 : Fin 1) R) (ix2 (1 : Fin 2) R)
    (fun a => match a with | ⟨0, _⟩ => by show 1 = 1 + 0; rfl | ⟨1, _⟩ => by show R.val = 0 + R.val; omega)

/-- The joined list, in its first half, is the first list. -/
theorem joined_lo (e1 e2 : (⟨S2x300000, .i32⟩ : BufTy).Contents (Elt Ideal)) (row : Fin 2) (r : Fin 300000) :
    (concatenate S2x600000 1 [⟨S2x300000, e1⟩, ⟨S2x300000, e2⟩] concatenates_S2x300000_S2x300000_S2x600000_d1) (ix2 row (lo r)) = e1 (ix2 row r) :=
  concatenate_pair_apply_left 1 e1 e2 concatenates_S2x300000_S2x300000_S2x600000_d1 (ix2 row (lo r)) rfl (ix2 row r)
    (fun b => match b with | ⟨0, _⟩ => rfl | ⟨1, _⟩ => rfl)

/-- The joined list, in its second half, is the second list. -/
theorem joined_hi (e1 e2 : (⟨S2x300000, .i32⟩ : BufTy).Contents (Elt Ideal)) (row : Fin 2) (r : Fin 300000) :
    (concatenate S2x600000 1 [⟨S2x300000, e1⟩, ⟨S2x300000, e2⟩] concatenates_S2x300000_S2x300000_S2x600000_d1) (ix2 row (hi r)) = e2 (ix2 row r) :=
  concatenate_pair_apply_right 1 e1 e2 concatenates_S2x300000_S2x300000_S2x600000_d1 (ix2 row (hi r)) rfl rfl (ix2 row r)
    (fun b hb => match b with | ⟨0, _⟩ => rfl | ⟨1, _⟩ => absurd rfl hb)
    (by show r.val + 300000 = 300000 + r.val; omega)

theorem rowOf_wrap (v : BitVec 32) : rowOf 100000 (by decide) (wrapIdx v) = node v := rfl

variable (m : (ℓ : Loc nD τ sig) → Buf (Elt Ideal) ℓ)

/-! ## The two feature arrays, down to the arguments -/

/-- Row `r` of the first-endpoint features is the row of `x` that the first list's first endpoint of edge `r` names. -/
theorem hrow_lo (c : Dev nD) (r : Fin 300000) (k : Fin 256) :
    V m c main_v12 (ix2 (lo r) k)
      = m ((c : Thread nD τ).loc main_arg0) (ix2 (node (m ((c : Thread nD τ).loc main_arg1) (ix2 (0 : Fin 2) r))) k) := by
  show StableHlo.after hostOps0 (fun b => m (c, b)) (Proc.devRef .tc main_v12) (ix2 (lo r) k) = _
  after_results
  show Host.gather (rowDims 100000 256 600000 gather_S100000x256_S600000x1_S600000x256_1_0_n_n_0_1_1256_wf) _ _ (ix2 (lo r) k) = _
  refine (gather_rows_apply (by decide) _ _ _ (lo r) k).trans ?_
  refine congrArg (fun n : Fin 100000 => m ((c : Thread nD τ).loc main_arg0) (ix2 n k)) ?_
  refine (congrArg (rowOf 100000 (by decide)) ?_).trans (rowOf_wrap _)
  refine (broadcastInDim_apply _ bcast_S600000_S600000x1_0 _ (ix2 (lo r) (0 : Fin 1)) (ix1 (lo r)) (fun a => match a with
    | ⟨0, _⟩ => by show (lo r).val = if (600000 : Nat) = 1 then 0 else (lo r).val; rw [if_neg (by decide)])).trans ?_
  show wrapIdx (shapeCast S600000 (extractStridedSlice S1x600000 ![0, 0] (concatenate S2x600000 1 [⟨S2x300000, (m ((c : Thread nD τ).loc main_arg1))⟩, ⟨S2x300000, (m ((c : Thread nD τ).loc main_arg2))⟩] concatenates_S2x300000_S2x300000_S2x600000_d1) slices_S2x600000_S1x600000_0_0) shapeCasts_S1x600000_S600000 (ix1 (lo r))) = _
  rw [joined_row0, joined_lo]

/-- Row `300000 + r` of the first-endpoint features: the second list's first endpoint of edge `r`. -/
theorem hrow_hi (c : Dev nD) (r : Fin 300000) (k : Fin 256) :
    V m c main_v12 (ix2 (hi r) k)
      = m ((c : Thread nD τ).loc main_arg0) (ix2 (node (m ((c : Thread nD τ).loc main_arg2) (ix2 (0 : Fin 2) r))) k) := by
  show StableHlo.after hostOps0 (fun b => m (c, b)) (Proc.devRef .tc main_v12) (ix2 (hi r) k) = _
  after_results
  show Host.gather (rowDims 100000 256 600000 gather_S100000x256_S600000x1_S600000x256_1_0_n_n_0_1_1256_wf) _ _ (ix2 (hi r) k) = _
  refine (gather_rows_apply (by decide) _ _ _ (hi r) k).trans ?_
  refine congrArg (fun n : Fin 100000 => m ((c : Thread nD τ).loc main_arg0) (ix2 n k)) ?_
  refine (congrArg (rowOf 100000 (by decide)) ?_).trans (rowOf_wrap _)
  refine (broadcastInDim_apply _ bcast_S600000_S600000x1_0 _ (ix2 (hi r) (0 : Fin 1)) (ix1 (hi r)) (fun a => match a with
    | ⟨0, _⟩ => by show (hi r).val = if (600000 : Nat) = 1 then 0 else (hi r).val; rw [if_neg (by decide)])).trans ?_
  show wrapIdx (shapeCast S600000 (extractStridedSlice S1x600000 ![0, 0] (concatenate S2x600000 1 [⟨S2x300000, (m ((c : Thread nD τ).loc main_arg1))⟩, ⟨S2x300000, (m ((c : Thread nD τ).loc main_arg2))⟩] concatenates_S2x300000_S2x300000_S2x600000_d1) slices_S2x600000_S1x600000_0_0) shapeCasts_S1x600000_S600000 (ix1 (hi r))) = _
  rw [joined_row0, joined_hi]

set_option maxHeartbeats 4000000 in
/-- Row `r` of the second-endpoint features: the first list's second endpoint of edge `r`. -/
theorem hcol_lo (c : Dev nD) (r : Fin 300000) (k : Fin 256) :
    V m c main_v19 (ix2 (lo r) k)
      = m ((c : Thread nD τ).loc main_arg0) (ix2 (node (m ((c : Thread nD τ).loc main_arg1) (ix2 (1 : Fin 2) r))) k) := by
  show StableHlo.after hostOps0 (fun b => m (c, b)) (Proc.devRef .tc main_v19) (ix2 (lo r) k) = _
  after_results
  show Host.gather (rowDims 100000 256 600000 gather_S100000x256_S600000x1_S600000x256_1_0_n_n_0_1_1256_wf) _ _ (ix2 (lo r) k) = _
  refine (gather_rows_apply (by decide) _ _ _ (lo r) k).trans ?_
  refine congrArg (fun n : Fin 100000 => m ((c : Thread nD τ).loc main_arg0) (ix2 n k)) ?_
  refine (congrArg (rowOf 100000 (by decide)) ?_).trans (rowOf_wrap _)
  refine (broadcastInDim_apply _ bcast_S600000_S600000x1_0 _ (ix2 (lo r) (0 : Fin 1)) (ix1 (lo r)) (fun a => match a with
    | ⟨0, _⟩ => by show (lo r).val = if (600000 : Nat) = 1 then 0 else (lo r).val; rw [if_neg (by decide)])).trans ?_
  show wrapIdx (shapeCast S600000 (extractStridedSlice S1x600000 ![1, 0] (concatenate S2x600000 1 [⟨S2x300000, (m ((c : Thread nD τ).loc main_arg1))⟩, ⟨S2x300000, (m ((c : Thread nD τ).loc main_arg2))⟩] concatenates_S2x300000_S2x300000_S2x600000_d1) slices_S2x600000_S1x600000_1_0) shapeCasts_S1x600000_S600000 (ix1 (lo r))) = _
  rw [joined_row1, joined_lo]

set_option maxHeartbeats 4000000 in
/-- Row `300000 + r` of the second-endpoint features: the second list's second endpoint of edge `r`. -/
theorem hcol_hi (c : Dev nD) (r : Fin 300000) (k : Fin 256) :
    V m c main_v19 (ix2 (hi r) k)
      = m ((c : Thread nD τ).loc main_arg0) (ix2 (node (m ((c : Thread nD τ).loc main_arg2) (ix2 (1 : Fin 2) r))) k) := by
  show StableHlo.after hostOps0 (fun b => m (c, b)) (Proc.devRef .tc main_v19) (ix2 (hi r) k) = _
  after_results
  show Host.gather (rowDims 100000 256 600000 gather_S100000x256_S600000x1_S600000x256_1_0_n_n_0_1_1256_wf) _ _ (ix2 (hi r) k) = _
  refine (gather_rows_apply (by decide) _ _ _ (hi r) k).trans ?_
  refine congrArg (fun n : Fin 100000 => m ((c : Thread nD τ).loc main_arg0) (ix2 n k)) ?_
  refine (congrArg (rowOf 100000 (by decide)) ?_).trans (rowOf_wrap _)
  refine (broadcastInDim_apply _ bcast_S600000_S600000x1_0 _ (ix2 (hi r) (0 : Fin 1)) (ix1 (hi r)) (fun a => match a with
    | ⟨0, _⟩ => by show (hi r).val = if (600000 : Nat) = 1 then 0 else (hi r).val; rw [if_neg (by decide)])).trans ?_
  show wrapIdx (shapeCast S600000 (extractStridedSlice S1x600000 ![1, 0] (concatenate S2x600000 1 [⟨S2x300000, (m ((c : Thread nD τ).loc main_arg1))⟩, ⟨S2x300000, (m ((c : Thread nD τ).loc main_arg2))⟩] concatenates_S2x300000_S2x300000_S2x600000_d1) slices_S2x600000_S1x600000_1_0) shapeCasts_S1x600000_S600000 (ix1 (hi r))) = _
  rw [joined_row1, joined_hi]

/-! ## The weights and the biases -/

/-- The upper 256 rows of the first weights. -/
theorem w0top (c : Dev nD) (a : Fin 256) (b : Fin 512) :
    V m c main_v21 (ix2 a b) = m ((c : Thread nD τ).loc main_arg3) (ix2 (⟨a.val, by have := a.isLt; omega⟩ : Fin 512) b) := by
  show StableHlo.after hostOps0 (fun b => m (c, b)) (Proc.devRef .tc main_v21) (ix2 a b) = _
  after_results
  exact extractStridedSlice_apply ![0, 0] (m ((c : Thread nD τ).loc main_arg3)) slices_S512x512_S256x512_0_0 (ix2 a b) (ix2 (⟨a.val, by have := a.isLt; omega⟩ : Fin 512) b)
    (fun d => match d with | ⟨0, _⟩ => by show a.val = 0 + a.val; omega | ⟨1, _⟩ => by show b.val = 0 + b.val; omega)

/-- The lower 256 rows of the first weights. -/
theorem w0bot (c : Dev nD) (a : Fin 256) (b : Fin 512) :
    V m c main_v23 (ix2 a b) = m ((c : Thread nD τ).loc main_arg3) (ix2 (⟨256 + a.val, by have := a.isLt; omega⟩ : Fin 512) b) := by
  show StableHlo.after hostOps0 (fun b => m (c, b)) (Proc.devRef .tc main_v23) (ix2 a b) = _
  after_results
  exact extractStridedSlice_apply ![256, 0] (m ((c : Thread nD τ).loc main_arg3)) slices_S512x512_S256x512_256_0 (ix2 a b) (ix2 (⟨256 + a.val, by have := a.isLt; omega⟩ : Fin 512) b)
    (fun d => match d with | ⟨0, _⟩ => by show 256 + a.val = 256 + a.val; rfl | ⟨1, _⟩ => by show b.val = 0 + b.val; omega)

theorem w1 (c : Dev nD) (a : Fin 512) (b : Fin 256) :
    V m c main_v24 (ix2 a b) = m ((c : Thread nD τ).loc main_arg5) (ix2 a b) := by
  show StableHlo.after hostOps0 (fun b => m (c, b)) (Proc.devRef .tc main_v24) (ix2 a b) = _
  after_results
  rfl

theorem w2 (c : Dev nD) (a : Fin 256) (b : Fin 2) :
    V m c main_v25 (ix2 a b) = m ((c : Thread nD τ).loc main_arg7) (ix2 a b) := by
  show StableHlo.after hostOps0 (fun b => m (c, b)) (Proc.devRef .tc main_v25) (ix2 a b) = _
  after_results
  rfl

theorem bias0 (c : Dev nD) (a : Fin 512) :
    V m c main_v26 (ix2 (0 : Fin 1) a) = m ((c : Thread nD τ).loc main_arg4) (ix1 a) := by
  show StableHlo.after hostOps0 (fun b => m (c, b)) (Proc.devRef .tc main_v26) (ix2 (0 : Fin 1) a) = _
  after_results
  show shapeCast S1x512 (m ((c : Thread nD τ).loc main_arg4)) shapeCasts_S512_S1x512 (ix2 (0 : Fin 1) a) = _
  exact shapeCast_apply _ shapeCasts_S512_S1x512 (ix2 (0 : Fin 1) a) (ix1 a)
    (by rewrite [Shape.rowMajor_val_one, Shape.rowMajor_val_two]; show a.val = 0 * 512 + a.val; omega)

theorem bias1 (c : Dev nD) (a : Fin 256) :
    V m c main_v27 (ix2 (0 : Fin 1) a) = m ((c : Thread nD τ).loc main_arg6) (ix1 a) := by
  show StableHlo.after hostOps0 (fun b => m (c, b)) (Proc.devRef .tc main_v27) (ix2 (0 : Fin 1) a) = _
  after_results
  show shapeCast S1x256 (m ((c : Thread nD τ).loc main_arg6)) shapeCasts_S256_S1x256 (ix2 (0 : Fin 1) a) = _
  exact shapeCast_apply _ shapeCasts_S256_S1x256 (ix2 (0 : Fin 1) a) (ix1 a)
    (by rewrite [Shape.rowMajor_val_one, Shape.rowMajor_val_two]; show a.val = 0 * 256 + a.val; omega)

theorem bias2 (c : Dev nD) (a : Fin 2) :
    V m c main_v28 (ix2 (0 : Fin 1) a) = m ((c : Thread nD τ).loc main_arg8) (ix1 a) := by
  show StableHlo.after hostOps0 (fun b => m (c, b)) (Proc.devRef .tc main_v28) (ix2 (0 : Fin 1) a) = _
  after_results
  show shapeCast S1x2 (m ((c : Thread nD τ).loc main_arg8)) shapeCasts_S2_S1x2 (ix2 (0 : Fin 1) a) = _
  exact shapeCast_apply _ shapeCasts_S2_S1x2 (ix2 (0 : Fin 1) a) (ix1 a)
    (by rewrite [Shape.rowMajor_val_one, Shape.rowMajor_val_two]; show a.val = 0 * 2 + a.val; omega)

end Cert.KernelIdeal.Prefix

end
-- ==== Proof.KernelValue.lean ====
/-
  The kernel program's two results as the specification's function of the arguments.

  The region's result `[600000, 2]` holds, in row `R`, the log-probabilities of edge `R` of the two edge lists laid
  end to end; its first 300000 rows are the first list's result and its last 300000 rows the second list's, which
  is what the two slices after the region return. A row of the region's result is the specification's row: the
  region's arrays are read back to the arguments, and the first product taken as two sums of 256 is the one sum
  over the 512 concatenated features.
-/
import proofs.«407727_j4234837754403_3_alg».proof.Proof.Gen.KernelIdeal.Frame
import proofs.«407727_j4234837754403_3_alg».proof.Proof.Blocks
import proofs.«407727_j4234837754403_3_alg».proof.Proof.Prefix
import proofs.«407727_j4234837754403_3_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.SL.Sem Idealize.ShloMosaic.StableHlo Cert.EdgeMlp Cert.KernelIdeal.Blocks Cert.KernelIdeal.Prefix

variable (m : (ℓ : Loc nD τ sig) → Buf (Elt Ideal) ℓ) (ρ : Dev nD → PrngReg)

/-- The first edge list's result, from the arguments. -/
abbrev outA (c : Dev nD) : FVec Ideal ⟨2, ![300000, 2]⟩ .f32 := edgeOut (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
/-- The second edge list's result, from the arguments. -/
abbrev outB (c : Dev nD) : FVec Ideal ⟨2, ![300000, 2]⟩ .f32 := edgeOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-! ## A row of the region's result is the specification's row -/

theorem regionRow_lo (c : Dev nD) (r : Fin 300000) (j : Fin 2) : regionOut m c (ix2 (lo r) j) = outA m c (ix2 r j) := by
  show kerRow (V m c main_v12) (V m c main_v19) (V m c main_v21) (V m c main_v23) (V m c main_v26) (V m c main_v24)
      (V m c main_v27) (V m c main_v25) (V m c main_v28) (lo r) j
    = edgeRow (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) r j
  unfold kerRow edgeRow
  simp only [hrow_lo m c r, hcol_lo m c r, w0top m c, w0bot m c, w1 m c, w2 m c, bias0 m c, bias1 m c, bias2 m c]
  refine congrArg (fun z => tail z _ _ _ _ _ j) (funext fun k1 => ?_)
  exact (first_split (fun k => (m ((c : Thread nD τ).loc main_arg0)) (ix2 (node ((m ((c : Thread nD τ).loc main_arg1)) (ix2 (0 : Fin 2) r))) k))
    (fun k => (m ((c : Thread nD τ).loc main_arg0)) (ix2 (node ((m ((c : Thread nD τ).loc main_arg1)) (ix2 (1 : Fin 2) r))) k))
    (fun a b => (m ((c : Thread nD τ).loc main_arg3)) (ix2 a b)) k1).symm

theorem regionRow_hi (c : Dev nD) (r : Fin 300000) (j : Fin 2) : regionOut m c (ix2 (hi r) j) = outB m c (ix2 r j) := by
  show kerRow (V m c main_v12) (V m c main_v19) (V m c main_v21) (V m c main_v23) (V m c main_v26) (V m c main_v24)
      (V m c main_v27) (V m c main_v25) (V m c main_v28) (hi r) j
    = edgeRow (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) r j
  unfold kerRow edgeRow
  simp only [hrow_hi m c r, hcol_hi m c r, w0top m c, w0bot m c, w1 m c, w2 m c, bias0 m c, bias1 m c, bias2 m c]
  refine congrArg (fun z => tail z _ _ _ _ _ j) (funext fun k1 => ?_)
  exact (first_split (fun k => (m ((c : Thread nD τ).loc main_arg0)) (ix2 (node ((m ((c : Thread nD τ).loc main_arg2)) (ix2 (0 : Fin 2) r))) k))
    (fun k => (m ((c : Thread nD τ).loc main_arg0)) (ix2 (node ((m ((c : Thread nD τ).loc main_arg2)) (ix2 (1 : Fin 2) r))) k))
    (fun a b => (m ((c : Thread nD τ).loc main_arg3)) (ix2 a b)) k1).symm

/-! ## The two slices after the region -/

/-- What the region leaves in its result array, among the core's buffers. -/
theorem region_arr (c : Dev nD) :
    Pipeline.withArrays spec0 c (V0 m c) (fun w => (dats m 0 c).arrAt w cfg0.N) (Proc.devRef .tc (Pipeline.arrRef spec0 9))
      = regionOut m c :=
  (Pipeline.withArrays_arr spec0 launch0.win.arr_inj c (V0 m c) (fun w => (dats m 0 c).arrAt w cfg0.N) 9).trans (Blocks.final m c)

/-- The first result is rows `0 … 299999` of the region's. -/
theorem tail_a (c : Dev nD) : Pipeline.afterTail₀ cfgs (dats m) 0 (V0 m) [hostOps1] c main_v30 = outA m c := by
  unfold Pipeline.afterTail₀
  show StableHlo.after hostOps1 _ (Proc.devRef .tc main_v30) = _
  after_results
  funext i
  obtain ⟨r, j, rfl⟩ : ∃ (r : Fin 300000) (j : Fin 2), i = ix2 r j := ⟨i 0, i 1, eq_ix2 i⟩
  refine (extractStridedSlice_apply ![0, 0] _ slices_S600000x2_S300000x2_0_0 (ix2 r j) (ix2 (lo r) j)
    (fun a => match a with | ⟨0, _⟩ => by show r.val = 0 + r.val; omega | ⟨1, _⟩ => by show j.val = 0 + j.val; omega)).trans ?_
  exact (congrFun (region_arr m c) (ix2 (lo r) j)).trans (regionRow_lo m c r j)

/-- The second result is rows `300000 … 599999` of the region's. -/
theorem tail_b (c : Dev nD) : Pipeline.afterTail₀ cfgs (dats m) 0 (V0 m) [hostOps1] c main_v31 = outB m c := by
  unfold Pipeline.afterTail₀
  show StableHlo.after hostOps1 _ (Proc.devRef .tc main_v31) = _
  after_results
  funext i
  obtain ⟨r, j, rfl⟩ : ∃ (r : Fin 300000) (j : Fin 2), i = ix2 r j := ⟨i 0, i 1, eq_ix2 i⟩
  refine (extractStridedSlice_apply ![300000, 0] _ slices_S600000x2_S300000x2_300000_0 (ix2 r j) (ix2 (hi r) j)
    (fun a => match a with | ⟨0, _⟩ => by show 300000 + r.val = 300000 + r.val; rfl | ⟨1, _⟩ => by show j.val = 0 + j.val; omega)).trans ?_
  exact (congrFun (region_arr m c) (ix2 (hi r) j)).trans (regionRow_hi m c r j)

/-! ## The run -/

/-- Every weakly fair execution of the kernel program terminates with the two results at the specification's arrays
    and the arguments unchanged. -/
theorem run : θ_run defs (onTc (τ := τ) (main (F := Ideal))) ⟨m, fun _ => 0, ρ⟩ (fun r => ∀ c : Dev nD,
      r.2.mem ((c.tc : Thread nD τ).loc main_v30) = outA m c
      ∧ r.2.mem ((c.tc : Thread nD τ).loc main_v31) = outB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      (((h c).2 main_v30 (Pipeline.mem_restRefs_of main_v30 (by decide) (by decide))).trans (tail_a m c)),
      (((h c).2 main_v31 (Pipeline.mem_restRefs_of main_v31 (by decide) (by decide))).trans (tail_b m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩) (run_main m ρ)

end Cert.KernelIdeal.KernelValue

end
-- ==== Proof.lean ====
/-
  An edge classifier over a graph: for every edge of two edge lists, the features of its two endpoints are gathered,
  laid side by side, sent through a three-layer perceptron (512 → 512 → 256 → 2, rectified) and turned into
  log-probabilities. The kernel program joins the two edge lists, gathers once, runs the perceptron block by block
  over the 600000 joined edges with the first product split between the two endpoints' features, and cuts the
  result back into the two lists' halves; the reference treats each list by itself with one product over the 512
  concatenated features.

  At exact arithmetic both compute, for each edge, the specification's row (Proof/Spec.lean): the kernel program by
  reading the region's blocks (Proof/Payload.lean, Proof/Blocks.lean), the host lines before it (Proof/Prefix.lean)
  and the two slices after it (Proof/KernelValue.lean); the reference by reading its operations one at a time
  (Proof/RefValue.lean). The only law between the two forms is the regrouping of the first product's sum over 512
  terms into two sums over 256, which holds on the extended reals as it stands, so the precondition is not used
  beyond the frames. No operation was rewritten for the exact-arithmetic reading, so the third conjunct is trivial.
-/
import proofs.«407727_j4234837754403_3_alg».proof.Defs
import proofs.«407727_j4234837754403_3_alg».proof.Proof.Gen.Kernel
import proofs.«407727_j4234837754403_3_alg».proof.Proof.Gen.Kernel.Skeleton
import proofs.«407727_j4234837754403_3_alg».proof.Proof.Gen.Kernel.Launch
import proofs.«407727_j4234837754403_3_alg».proof.Proof.Gen.Kernel.Points
import proofs.«407727_j4234837754403_3_alg».proof.Proof.Gen.Kernel.Frame
import proofs.«407727_j4234837754403_3_alg».proof.Proof.Gen.KernelIdeal
import proofs.«407727_j4234837754403_3_alg».proof.Proof.Gen.KernelIdeal.Skeleton
import proofs.«407727_j4234837754403_3_alg».proof.Proof.Gen.KernelIdeal.Launch
import proofs.«407727_j4234837754403_3_alg».proof.Proof.Gen.KernelIdeal.Points
import proofs.«407727_j4234837754403_3_alg».proof.Proof.Gen.KernelIdeal.Frame
import proofs.«407727_j4234837754403_3_alg».proof.Proof.Gen.ReferenceIdeal
import proofs.«407727_j4234837754403_3_alg».proof.Proof.Gen.Pre_finite_inputs
import proofs.«407727_j4234837754403_3_alg».proof.Proof.RefRun
import proofs.«407727_j4234837754403_3_alg».proof.Proof.RefRead
import proofs.«407727_j4234837754403_3_alg».proof.Proof.RefValue
import proofs.«407727_j4234837754403_3_alg».proof.Proof.KernelValue
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_k : Cert.frame_Kernel := fun m ρ _ => Cert.Kernel.Gen.frame m ρ

/-- So does its reading at exact arithmetic. -/
theorem frame_ki : Cert.frame_KernelIdeal := fun m ρ _ => Cert.KernelIdeal.Gen.frame m ρ

/-- The reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- From arguments that agree, both programs end with the specification's two arrays. -/
theorem algebraic : Cert.algebraic_KernelIdeal_ReferenceIdeal := by
  intro m ρ m' ρ' _ hagree
  refine ⟨fun c => Cert.KernelIdeal.KernelValue.outA m c, fun c => Cert.KernelIdeal.KernelValue.outB m c,
    Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨h0, h1, h2, h3, h4, h5, h6, h7, h8⟩ := hagree c
    rw [Cert.ReferenceIdeal.ReadP.val_main_v33_eq, Cert.ReferenceIdeal.RefValue.out0_eq, h0, h1, h3, h4, h5, h6, h7, h8]
  · obtain ⟨h0, h1, h2, h3, h4, h5, h6, h7, h8⟩ := hagree c
    rw [Cert.ReferenceIdeal.ReadP.val_main_v67_eq, Cert.ReferenceIdeal.RefValue.out1_eq, h0, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
